-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x400000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x400000 : Shape := ⟨2, ![2, 400000]⟩
abbrev S128x128 : Shape := ⟨2, ![128, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128 : Shape := ⟨2, ![1, 128]⟩
abbrev S4000x128 : Shape := ⟨2, ![4000, 128]⟩

abbrev nBuf : Space → Nat
  | .hbm => 49
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .f32⟩
  | .hbm, ⟨22, _⟩ => ⟨S100000x128, .f32⟩
  | .hbm, ⟨23, _⟩ => ⟨S400000x1, .i32⟩
  | .hbm, ⟨24, _⟩ => ⟨S100000x128, .f32⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S128x128, .bf16⟩
  | .hbm, ⟨29, _⟩ => ⟨S1x128, .f32⟩
  | .hbm, ⟨30, _⟩ => ⟨S1x128, .f32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S4000x128 : S1x128.Broadcasts S4000x128
  reduces_S4000x128_S128 : S4000x128.Reduces [0] S128
  bcast_S_S1x128 : S_.BroadcastsInDim S1x128 (![] : Fin 0 → Fin S1x128.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S128x128 : Shape := ⟨2, ![128, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .f32⟩
  | .hbm, ⟨22, _⟩ => ⟨S100000x128, .f32⟩
  | .hbm, ⟨23, _⟩ => ⟨S400000x1, .i32⟩
  | .hbm, ⟨24, _⟩ => ⟨S100000x128, .f32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelValue.lean ====
/-
  What the two regions are entered at, as terms of the launch memory — at any float instance.
  Before the first region @main computes the neighbour sums (a gather of feature rows at the wrapped source ids,
  accumulated by a scatter at the destination ids), transposes each weight and changes its float format, and views
  each bias as a row. Between the regions it forms, from the first region's accumulated column sums s₁ and s₂,
  μ = s₁ / n and ρ = rsqrt (s₂ / n − μ · μ + ε), and views γ and β as rows.
-/
import proofs.«166746_j87703232184759_1_alg».proof.Proof.Gen.KernelIdeal.Frame
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable {F : FTy → Type} [FloatOps F]

/-- The source ids (row 0 of edge_index), a negative id wrapped by the number of nodes. -/
def srcIds (x1 : IVec S2x400000 32) : IVec S400000 32 :=
  select
    (cmpi .slt (shapeCast S400000 (extractStridedSlice S1x400000 ![0, 0] x1 slices_S2x400000_S1x400000_0_0) shapeCasts_S1x400000_S400000)
      (broadcastInDim S400000 ![] bcast_S_S400000 (constantI S_ 32 0#32)))
    (addi (shapeCast S400000 (extractStridedSlice S1x400000 ![0, 0] x1 slices_S2x400000_S1x400000_0_0) shapeCasts_S1x400000_S400000)
      (broadcastInDim S400000 ![] bcast_S_S400000 (constantI S_ 32 100000#32)))
    (shapeCast S400000 (extractStridedSlice S1x400000 ![0, 0] x1 slices_S2x400000_S1x400000_0_0) shapeCasts_S1x400000_S400000)

/-- The neighbour sums: the rows of feature gathered at the source ids, accumulated into zeros at the destination
    ids (row 1 of edge_index). -/
def agg (x0 : FVec F S100000x128 .f32) (x1 : IVec S2x400000 32) : FVec F S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0
      (shapeCast S400000 (extractStridedSlice S1x400000 ![1, 0] x1 slices_S2x400000_S1x400000_1_0) shapeCasts_S1x400000_S400000))
    (Host.gather gather_S100000x128_S400000x1_S400000x128_1_0_n_n_0_1_1128 x0
      (broadcastInDim S400000x1 ![0] bcast_S400000_S400000x1_0 (srcIds x1)))

/-- A weight as the first kernel takes it: transposed, in the narrower float format. -/
def wT (w : FVec F S128x128 .f32) : FVec F S128x128 .bf16 :=
  truncf .bf16 (transpose S128x128 [1, 0] w transposes_S128x128_S128x128_1_0) bitsLt_bf16_f32

/-- A vector of 128 viewed as a row [1, 128]. -/
def rowOf (v : FVec F S128 .f32) : FVec F S1x128 .f32 := shapeCast S1x128 v shapeCasts_S128_S1x128

/-- The broadcast of a scalar float word to a row. -/
def rowConst (w : BitVec 32) : FVec F S1x128 .f32 := broadcastInDim S1x128 ![] bcast_S_S1x128 (constant S_ .f32 w)

/-- μ from the accumulated column sums. -/
def meanRow (s1 : FVec F S1x128 .f32) : FVec F S1x128 .f32 := Host.divf s1 (rowConst 0x47C35000#32)

/-- ρ from the two accumulated column sums. -/
def rstdRow (s1 s2 : FVec F S1x128 .f32) : FVec F S1x128 .f32 :=
  Host.rsqrt (addf (subf (Host.divf s2 (rowConst 0x47C35000#32)) (mulf (meanRow s1) (meanRow s1))) (rowConst 0x3727C5AC#32))

variable (m : (ℓ : Loc nD τ sig) → Buf (Elt F) ℓ) (ρ : Dev nD → PrngReg)

/-! ## The first region's inputs -/

theorem V1_arg0 (c : Dev nD) : V1 m ρ c main_arg0 = m ((c : Thread nD τ).loc main_arg0) :=
  show StableHlo.after hostOps0 (W0 m ρ c) (Proc.devRef .tc main_arg0) = _ from
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem V1_v13 (c : Dev nD) : V1 m ρ c main_v13
    = agg (m ((c : Thread nD τ).loc main_arg0)) (m ((c : Thread nD τ).loc main_arg1)) := by
  show StableHlo.after hostOps0 (W0 m ρ c) (Proc.devRef .tc main_v13) = _
  unfold agg srcIds
  after_results
  rfl

theorem V1_v15 (c : Dev nD) : V1 m ρ c main_v15 = wT (m ((c : Thread nD τ).loc main_arg2)) := by
  show StableHlo.after hostOps0 (W0 m ρ c) (Proc.devRef .tc main_v15) = _
  unfold wT
  after_results

theorem V1_v17 (c : Dev nD) : V1 m ρ c main_v17 = wT (m ((c : Thread nD τ).loc main_arg4)) := by
  show StableHlo.after hostOps0 (W0 m ρ c) (Proc.devRef .tc main_v17) = _
  unfold wT
  after_results

theorem V1_v18 (c : Dev nD) : V1 m ρ c main_v18 = rowOf (m ((c : Thread nD τ).loc main_arg3)) := by
  show StableHlo.after hostOps0 (W0 m ρ c) (Proc.devRef .tc main_v18) = _
  unfold rowOf
  after_results
  rfl

theorem V1_v19 (c : Dev nD) : V1 m ρ c main_v19 = rowOf (m ((c : Thread nD τ).loc main_arg5)) := by
  show StableHlo.after hostOps0 (W0 m ρ c) (Proc.devRef .tc main_v19) = _
  unfold rowOf
  after_results
  rfl

/-! ## The second region's inputs -/

/-- γ and β reach the stretch between the regions as launched: nothing before it writes an argument. -/
theorem W2_arg6 (c : Dev nD) : W2 m ρ c (Proc.devRef .tc main_arg6) = m ((c : Thread nD τ).loc main_arg6) :=
  (W2_of_ne m ρ c main_arg6 (by decide)).trans
    ((StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W2_arg7 (c : Dev nD) : W2 m ρ c (Proc.devRef .tc main_arg7) = m ((c : Thread nD τ).loc main_arg7) :=
  (W2_of_ne m ρ c main_arg7 (by decide)).trans
    ((StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- The hidden array passes the stretch untouched: it is the first region's result 0. -/
theorem V3_v20_0 (c : Dev nD) : V3 m ρ c main_v20_0 = (dat0 (V1 m ρ) c).arrAt 6 cfg0.N :=
  show StableHlo.after hostOps1 (W2 m ρ c) (Proc.devRef .tc main_v20_0) = _ from
    (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 6)

theorem V3_v22 (c : Dev nD) : V3 m ρ c main_v22 = meanRow ((dat0 (V1 m ρ) c).arrAt 7 cfg0.N) := by
  show StableHlo.after hostOps1 (W2 m ρ c) (Proc.devRef .tc main_v22) = _
  rw [← W2_arr m ρ c 7]
  unfold meanRow rowConst
  after_results

theorem V3_v29 (c : Dev nD) : V3 m ρ c main_v29
    = rstdRow ((dat0 (V1 m ρ) c).arrAt 7 cfg0.N) ((dat0 (V1 m ρ) c).arrAt 8 cfg0.N) := by
  show StableHlo.after hostOps1 (W2 m ρ c) (Proc.devRef .tc main_v29) = _
  rw [← W2_arr m ρ c 7, ← W2_arr m ρ c 8]
  unfold rstdRow meanRow rowConst
  after_results

theorem V3_v30 (c : Dev nD) : V3 m ρ c main_v30 = rowOf (m ((c : Thread nD τ).loc main_arg6)) := by
  show StableHlo.after hostOps1 (W2 m ρ c) (Proc.devRef .tc main_v30) = _
  rw [← W2_arg6 m ρ c]
  unfold rowOf
  after_results
  rfl

theorem V3_v31 (c : Dev nD) : V3 m ρ c main_v31 = rowOf (m ((c : Thread nD τ).loc main_arg7)) := by
  show StableHlo.after hostOps1 (W2 m ρ c) (Proc.devRef .tc main_v31) = _
  rw [← W2_arg7 m ρ c]
  unfold rowOf
  after_results
  rfl

end Cert.KernelIdeal.KValue

end
-- ==== Proof.Reg0Pieces.lean ====
/-
  What each case of the first kernel's body leaves in its three output buffers, as the body's own arithmetic:
  the hidden block in the first; in the two accumulators the running column sums — at the first grid point over
  the zeros the body has just stored, at every later point over what the point before left.
-/
import proofs.«166746_j87703232184759_1_alg».proof.Proof.Gen.KernelIdeal.Frame
import Idealize.ShloMosaic.Lib.Pipeline.Value
import Idealize.ShloMosaic.Lib.Tactic

noncomputable section

namespace Cert.KernelIdeal.Reg0

open Idealize.ShloMosaic Idealize.ShloMosaic.TcCoe Idealize.SL.Sem Cert.KernelIdeal Cert.KernelIdeal.Gen

variable {F : FTy → Type} [FloatOps F]

/-- The origin of a two-dimensional block: both offsets are zero. -/
private theorem hz : (![0, 0] : Fin 2 → Nat) = fun _ => 0 := funext fun a => by fin_cases a <;> rfl

/-- First point, output 6: the hidden block. -/
theorem pieceA6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x128 .f32) (x1 : Vec F S4000x128 .f32) (x2 : Vec F S128x128 .bf16) (x3 : Vec F S1x128 .f32) (x4 : Vec F S128x128 .bf16) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S4000x128) hz, View.ld_unit_zero (S := S128x128) hz, View.ld_unit_zero (S := S1x128) hz]

/-- First point, output 7: the column sums of the hidden block over the zeros just stored. -/
theorem pieceA7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x128 .f32) (x1 : Vec F S4000x128 .f32) (x2 : Vec F S128x128 .bf16) (x3 : Vec F S1x128 .f32) (x4 : Vec F S128x128 .bf16) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S4000x128) hz, View.ld_unit_zero (S := S128x128) hz, View.ld_unit_zero (S := S1x128) hz]

/-- First point, output 8: the column sums of the squares over the zeros just stored. -/
theorem pieceA8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x128 .f32) (x1 : Vec F S4000x128 .f32) (x2 : Vec F S128x128 .bf16) (x3 : Vec F S1x128 .f32) (x4 : Vec F S128x128 .bf16) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S4000x128) hz, View.ld_unit_zero (S := S128x128) hz, View.ld_unit_zero (S := S1x128) hz]

/-- A later point, output 6: the hidden block. -/
theorem pieceB6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S4000x128) hz, View.ld_unit_zero (S := S128x128) hz, View.ld_unit_zero (S := S1x128) hz]

/-- A later point, output 7: the carried sums plus this block's column sums. -/
theorem pieceB7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S4000x128) hz, View.ld_unit_zero (S := S128x128) hz, View.ld_unit_zero (S := S1x128) hz]

/-- A later point, output 8: the carried sums of squares plus this block's. -/
theorem pieceB8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S4000x128) hz, View.ld_unit_zero (S := S128x128) hz, View.ld_unit_zero (S := S1x128) hz]

end Cert.KernelIdeal.Reg0

end
-- ==== Proof.Spec.lean ====
/-
  The mathematics of the two programs, stated once and over no program: a graph-isomorphism layer followed by
  batch normalisation, as functions of whole arrays over the extended reals.

  With x = feature + agg (the neighbour sums), a layer is  L(x)[r, j] = max (∑ₖ x[r, k] · wt[k, j] + b[j]) 0,
  the hidden array is H = L (L x), and the output is  (H[r, j] − μ[j]) · ρ[j] · γ[j] + β[j]  with μ the column means
  of H and ρ = rsqrt (variance + ε). The two programs differ in ONE place, the variance of a column:
  the kernel accumulates ∑ H and ∑ H² and forms  ∑H²/n − (∑H/n)²,  the reference forms  ∑ (H − μ)² / n.
  Over the reals these agree, since  ∑ (aᵣ − μ)² = ∑ aᵣ² − 2 μ ∑ aᵣ + n μ² = ∑ aᵣ² − n μ²  when μ = ∑ aᵣ / n;
  on the extended reals the step needs every aᵣ to be a real number (distributivity fails at ±∞).
-/
import Idealize.ShloMosaic.PureOps.Ideal
import Idealize.ShloMosaic.Lib.ValueIdx

noncomputable section

namespace Cert.Spec

open Idealize.ShloMosaic Idealize.ShloMosaic.ValueIdx

/-- Node features: 100000 rows of 128. -/
abbrev SN : Shape := ⟨2, ![100000, 128]⟩
/-- A weight matrix, stored transposed: [k, j]. -/
abbrev SW : Shape := ⟨2, ![128, 128]⟩
/-- A row vector [1, 128]: a bias, a column statistic, γ, β. -/
abbrev SR : Shape := ⟨2, ![1, 128]⟩

/-- An extended real that is a real number. -/
def IsReal (x : EReal) : Prop := ∃ r : ℝ, x = (r : EReal)

/-- One linear layer and the rectifier: row r of x against column j of the transposed weight, plus the bias. -/
def layer (x : SN.Idx → EReal) (wt : SW.Idx → EReal) (b : SR.Idx → EReal) : SN.Idx → EReal :=
  fun i => max ((∑ k : Fin 128, x (ix2 (i 0) k) * wt (ix2 k (i 1))) + b (ix2 0 (i 1))) 0

/-- The hidden array: two layers over feature + neighbour sums. -/
def hid (f a : SN.Idx → EReal) (w1t : SW.Idx → EReal) (b1 : SR.Idx → EReal) (w2t : SW.Idx → EReal)
    (b2 : SR.Idx → EReal) : SN.Idx → EReal :=
  layer (layer (fun i => f i + a i) w1t b1) w2t b2

/-- Column sums of an array, as a row vector. -/
def colsum (h : SN.Idx → EReal) : SR.Idx → EReal := fun y => ∑ r : Fin 100000, h (ix2 r (y 1))

/-- Column sums of the squares. -/
def colsumsq (h : SN.Idx → EReal) : SR.Idx → EReal :=
  fun y => ∑ r : Fin 100000, h (ix2 r (y 1)) * h (ix2 r (y 1))

/-- The normalisation: (h − μ) · ρ · γ + β, the row vectors read at the entry's column. -/
def bn (h : SN.Idx → EReal) (mu rho g bt : SR.Idx → EReal) : SN.Idx → EReal :=
  fun i => (h i - mu (ix2 0 (i 1))) * rho (ix2 0 (i 1)) * g (ix2 0 (i 1)) + bt (ix2 0 (i 1))

/-- The kernel's statistics from its two accumulated sums: μ = s₁ / n. -/
def meanK (n : EReal) (s1 : SR.Idx → EReal) : SR.Idx → EReal := fun y => Ideal.div (s1 y) n

/-- The kernel's ρ = rsqrt (s₂ / n − μ · μ + ε). -/
def rstdK (n eps : EReal) (s1 s2 : SR.Idx → EReal) : SR.Idx → EReal :=
  fun y => Ideal.rsqrt ((Ideal.div (s2 y) n - Ideal.div (s1 y) n * Ideal.div (s1 y) n) + eps)

/-- What the kernel computes: the normalisation from the accumulated ∑ H and ∑ H². -/
def kernelOut (n eps : EReal) (f a : SN.Idx → EReal) (w1t : SW.Idx → EReal) (b1 : SR.Idx → EReal)
    (w2t : SW.Idx → EReal) (b2 g bt : SR.Idx → EReal) : SN.Idx → EReal :=
  bn (hid f a w1t b1 w2t b2) (meanK n (colsum (hid f a w1t b1 w2t b2)))
    (rstdK n eps (colsum (hid f a w1t b1 w2t b2)) (colsumsq (hid f a w1t b1 w2t b2))) g bt

/-- The reference's mean of a column: (0 + ∑ᵣ h[r, j]) / n. -/
def meanR (n : EReal) (h : SN.Idx → EReal) : SR.Idx → EReal :=
  fun y => Ideal.div (0 + ∑ r : Fin 100000, h (ix2 r (y 1))) n

/-- The reference's ρ = rsqrt ((0 + ∑ᵣ (h − μ)²) / n + ε). -/
def rstdR (n eps : EReal) (h : SN.Idx → EReal) : SR.Idx → EReal :=
  fun y => Ideal.rsqrt (Ideal.div (0 + ∑ r : Fin 100000,
    (h (ix2 r (y 1)) - meanR n h y) * (h (ix2 r (y 1)) - meanR n h y)) n + eps)

/-- What the reference computes: the normalisation from the centred second moment. -/
def refOut (n eps : EReal) (f a : SN.Idx → EReal) (w1t : SW.Idx → EReal) (b1 : SR.Idx → EReal)
    (w2t : SW.Idx → EReal) (b2 g bt : SR.Idx → EReal) : SN.Idx → EReal :=
  bn (hid f a w1t b1 w2t b2) (meanR n (hid f a w1t b1 w2t b2)) (rstdR n eps (hid f a w1t b1 w2t b2)) g bt

end Cert.Spec

end
-- ==== Proof.Reg0Payload.lean ====
/-
  The first kernel's arithmetic on one block of 4000 rows, read at an index over the extended reals: the hidden
  block is two layers (a matrix product into a zero accumulator is the plain sum over the contracted axis, a change
  of float format is the identity), and the two accumulator updates add the block's column sums to what they carry.
-/
import proofs.«166746_j87703232184759_1_alg».proof.Proof.Gen.KernelIdeal.Skeleton
import proofs.«166746_j87703232184759_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg0

open Idealize.ShloMosaic Idealize.ShloMosaic.ValueIdx Cert.KernelIdeal Cert.KernelIdeal.Gen

/-- One layer on a block of 4000 rows: row p of the block against column j of the transposed weight, plus the bias. -/
def layerB (x : S4000x128.Idx → EReal) (wt : S128x128.Idx → EReal) (b : S1x128.Idx → EReal) : S4000x128.Idx → EReal :=
  fun y => max ((∑ k : Fin 128, x (ix2 (y 0) k) * wt (ix2 k (y 1))) + b (ix2 0 (y 1))) 0

/-! ### The matrix product's operand indices, axis by axis -/

private theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A matrix product into the zero accumulator, at (p, q): the sum over the contracted axis of row p against column q. -/
private theorem matmul_zero_apply (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- One layer as the kernel computes it — the product into zero, the bias row broadcast over the rows, the maximum with the zero splat — is `layerB`. -/
private theorem layer_eq (x : FVec Ideal S4000x128 .f32) (w : FVec Ideal S128x128 .bf16) (b : FVec Ideal S1x128 .f32) :
    maximumf (addf (matmul dot_S4000x128_S128x128_S4000x128_1_0_0_1_n_n none (truncf .bf16 x bitsLt_bf16_f32) (shapeCast S128x128 w shapeCasts_S128x128_S128x128)
        (constant (F := Ideal) S4000x128 .f32 0x00000000#32))
        (broadcastTo S4000x128 (shapeCast S1x128 b shapeCasts_S1x128_S1x128) broadcasts_S1x128_S4000x128))
      (broadcast S4000x128 (Scalar.ofBits (F := Ideal) .f32 0x00000000#32))
      = layerB x w b := by
  funext y
  obtain ⟨p, q, rfl⟩ : ∃ (p : Fin 4000) (q : Fin 128), y = ix2 p q := ⟨y 0, y 1, eq_ix2 y⟩
  unfold layerB
  rw [shapeCast_self, shapeCast_self]
  show max (matmul dot_S4000x128_S128x128_S4000x128_1_0_0_1_n_n none (truncf .bf16 x bitsLt_bf16_f32) w (constant (F := Ideal) S4000x128 .f32 0x00000000#32) (ix2 p q)
      + broadcastTo S4000x128 b broadcasts_S1x128_S4000x128 (ix2 p q)) (Ideal.ofBits .f32 0x00000000#32)
    = max ((∑ k : Fin 128, x (ix2 p k) * w (ix2 k q)) + b (ix2 0 q)) 0
  rw [matmul_zero_apply, broadcastTo_1b_ab_apply, Ideal.ofBits_zero_f32]
  rfl

/-- The column sums of a block, stored as a row: at column j the sum over the 4000 rows. -/
private theorem colsum_apply (w : FVec Ideal S4000x128 .f32) (y : S1x128.Idx) :
    shapeCast S1x128 (multiReduction (F := Ideal) .add [0] S128 w 0x00000000#32 reduces_S4000x128_S128 (.inl rfl) rfl)
        shapeCasts_S128_S1x128 y
      = ∑ p : Fin 4000, w (ix2 p (y 1)) := by
  refine (shapeCast_addUnit_apply ![128] _ shapeCasts_S128_S1x128 y).trans ?_
  refine (Ideal.multiReduction_add_single w _ reduces_S4000x128_S128 (.inl rfl) rfl _).trans ?_
  refine Finset.sum_congr rfl fun p _ => congrArg w ?_
  funext a
  match a with
  | ⟨0, _⟩ => rfl
  | ⟨1, _⟩ => rfl

/-- The hidden block is two layers over the sum of the two input blocks. -/
theorem pay4_eq (x0 x1 : FVec Ideal S4000x128 .f32) (x2 : FVec Ideal S128x128 .bf16) (x3 : FVec Ideal S1x128 .f32) (x4 : FVec Ideal S128x128 .bf16) (x5 : FVec Ideal S1x128 .f32) :
    k0_pay4 (F := Ideal) x0 x1 x2 x3 x4 x5 = layerB (layerB (fun y => x0 y + x1 y) x2 x3) x4 x5 := by
  unfold k0_pay4
  refine (layer_eq _ x4 x5).trans ?_
  refine congrArg (fun z => layerB z x4 x5) ?_
  refine (layer_eq _ x2 x3).trans ?_
  refine congrArg (fun z => layerB z x2 x3) ?_
  rw [shapeCast_self]
  rfl

/-- The sum update at column j: what is carried plus the hidden block's column sum. -/
theorem pay5_apply (x0 x1 : FVec Ideal S4000x128 .f32) (x2 : FVec Ideal S128x128 .bf16) (x3 : FVec Ideal S1x128 .f32) (x4 : FVec Ideal S128x128 .bf16) (x5 : FVec Ideal S1x128 .f32) (xo : FVec Ideal S1x128 .f32) (y : S1x128.Idx) :
    k0_pay5 (F := Ideal) x0 x1 x2 x3 x4 x5 xo y
      = xo y + ∑ p : Fin 4000, k0_pay4 (F := Ideal) x0 x1 x2 x3 x4 x5 (ix2 p (y 1)) := by
  unfold k0_pay5
  rw [shapeCast_self]
  exact congrArg (xo y + ·) (colsum_apply _ y)

/-- The sum-of-squares update at column j: what is carried plus the column sum of the squares. -/
theorem pay1_apply (v : FVec Ideal S4000x128 .f32) (xo : FVec Ideal S1x128 .f32) (y : S1x128.Idx) :
    k0_pay1 (F := Ideal) v xo y = xo y + ∑ p : Fin 4000, v (ix2 p (y 1)) * v (ix2 p (y 1)) := by
  unfold k0_pay1
  rw [shapeCast_self]
  exact congrArg (xo y + ·) (colsum_apply (mulf v v) y)

/-- The reset stores zeros. -/
theorem pay2_apply (y : S1x128.Idx) : k0_pay2 (F := Ideal) y = 0 := by
  unfold k0_pay2
  exact Ideal.ofBits_zero_f32

theorem pay3_apply (y : S1x128.Idx) : k0_pay3 (F := Ideal) y = 0 := by
  unfold k0_pay3
  exact Ideal.ofBits_zero_f32

end Cert.KernelIdeal.Reg0

end
-- ==== Proof.Reg0Value.lean ====
/-
  What the first region leaves in its three result arrays, whatever contents V it is entered at: the hidden array
  H (block t of the result is the body's hidden block of rows 4000 t … 4000 t + 3999, and the 25 blocks cover the
  array), and in the two accumulators, written back once after the last point, the column sums of H and of H²
  (the running sums after point t are the sums over rows below 4000 (t + 1): by induction on the point).
-/
import proofs.«166746_j87703232184759_1_alg».proof.Proof.Gen.KernelIdeal.Frame
import proofs.«166746_j87703232184759_1_alg».proof.Proof.Reg0Pieces
import proofs.«166746_j87703232184759_1_alg».proof.Proof.Reg0Payload
import proofs.«166746_j87703232184759_1_alg».proof.Proof.Spec
import Idealize.ShloMosaic.Lib.ValueIdx
import Idealize.ShloMosaic.Lib.Pipeline.Value
import Idealize.ShloMosaic.Lib.Tactic

noncomputable section

namespace Cert.KernelIdeal.Reg0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The hidden array of the region's six input arrays. -/
abbrev Hk (c : Dev nD) : Cert.Spec.SN.Idx → EReal :=
  Cert.Spec.hid (V c main_arg0) (V c main_v13) (V c main_v15) (V c main_v18) (V c main_v17) (V c main_v19)

/-! ## The blocks the body reads at a point -/

/-- The grid has 25 points. -/
private theorem hN : cfg0.N = 25 := N_0

/-- Row `p` of the block of point `t` is row `4000 t + p` of the array. -/
private def rowOf (t : Fin cfg0.N) (p : Fin 4000) : Fin 100000 :=
  ⟨4000 * t.val + p.val, by have := t.isLt; have := hN; have := p.isLt; omega⟩

private abbrev xb0 (c : Dev nD) (t : Fin cfg0.N) : FVec Ideal S4000x128 .f32 := iblk0 V c 0 t
private abbrev xb1 (c : Dev nD) (t : Fin cfg0.N) : FVec Ideal S4000x128 .f32 := iblk0 V c 1 t
private abbrev xb2 (c : Dev nD) (t : Fin cfg0.N) : FVec Ideal S128x128 .bf16 := iblk0 V c 2 t
private abbrev xb3 (c : Dev nD) (t : Fin cfg0.N) : FVec Ideal S1x128 .f32 := iblk0 V c 3 t
private abbrev xb4 (c : Dev nD) (t : Fin cfg0.N) : FVec Ideal S128x128 .bf16 := iblk0 V c 4 t
private abbrev xb5 (c : Dev nD) (t : Fin cfg0.N) : FVec Ideal S1x128 .f32 := iblk0 V c 5 t

/-- Where the blocked windows sit at a point, decided over the grid. -/
private theorem idx0 : ∀ t : Fin cfg0.N, win0_0.index t 0 = t.val ∧ win0_0.index t 1 = 0 :=
  (by decide +kernel : ∀ t : Fin grid0.N, win0_0.index t 0 = t.val ∧ win0_0.index t 1 = 0)
private theorem idx1 : ∀ t : Fin cfg0.N, win0_1.index t 0 = t.val ∧ win0_1.index t 1 = 0 :=
  (by decide +kernel : ∀ t : Fin grid0.N, win0_1.index t 0 = t.val ∧ win0_1.index t 1 = 0)
private theorem idx2 : ∀ t : Fin cfg0.N, win0_2.index t 0 = 0 ∧ win0_2.index t 1 = 0 :=
  (by decide +kernel : ∀ t : Fin grid0.N, win0_2.index t 0 = 0 ∧ win0_2.index t 1 = 0)
private theorem idx3 : ∀ t : Fin cfg0.N, win0_3.index t 0 = 0 ∧ win0_3.index t 1 = 0 :=
  (by decide +kernel : ∀ t : Fin grid0.N, win0_3.index t 0 = 0 ∧ win0_3.index t 1 = 0)
private theorem idx4 : ∀ t : Fin cfg0.N, win0_4.index t 0 = 0 ∧ win0_4.index t 1 = 0 :=
  (by decide +kernel : ∀ t : Fin grid0.N, win0_4.index t 0 = 0 ∧ win0_4.index t 1 = 0)
private theorem idx5 : ∀ t : Fin cfg0.N, win0_5.index t 0 = 0 ∧ win0_5.index t 1 = 0 :=
  (by decide +kernel : ∀ t : Fin grid0.N, win0_5.index t 0 = 0 ∧ win0_5.index t 1 = 0)
private theorem idx6 : ∀ t : Fin cfg0.N, win0_6.index t 0 = t.val ∧ win0_6.index t 1 = 0 :=
  (by decide +kernel : ∀ t : Fin grid0.N, win0_6.index t 0 = t.val ∧ win0_6.index t 1 = 0)
private theorem idx7 : ∀ t : Fin cfg0.N, win0_7.index t 0 = 0 ∧ win0_7.index t 1 = 0 :=
  (by decide +kernel : ∀ t : Fin grid0.N, win0_7.index t 0 = 0 ∧ win0_7.index t 1 = 0)
private theorem idx8 : ∀ t : Fin cfg0.N, win0_8.index t 0 = 0 ∧ win0_8.index t 1 = 0 :=
  (by decide +kernel : ∀ t : Fin grid0.N, win0_8.index t 0 = 0 ∧ win0_8.index t 1 = 0)

/-- Block `t` of the feature array, read at (p, k): the array at (4000 t + p, k). -/
private theorem xb0_apply (c : Dev nD) (t : Fin cfg0.N) (p : Fin 4000) (k : Fin 128) :
    xb0 V c t (ix2 p k) = V c main_arg0 (ix2 (rowOf t p) k) := by
  obtain ⟨e0, e1⟩ := idx0 t
  show iblk0 V c 0 t (ix2 p k) = _
  unfold iblk0
  rw [View.read_apply]
  show V c main_arg0 _ = V c main_arg0 _
  congr 1
  funext a
  apply Fin.ext
  match a with
  | ⟨0, _⟩ => show win0_0.index t 0 * 4000 + 1 * p.val = 4000 * t.val + p.val; rw [e0]; omega
  | ⟨1, _⟩ => show win0_0.index t 1 * 128 + 1 * k.val = k.val; rw [e1]; omega

/-- Block `t` of the neighbour sums, likewise. -/
private theorem xb1_apply (c : Dev nD) (t : Fin cfg0.N) (p : Fin 4000) (k : Fin 128) :
    xb1 V c t (ix2 p k) = V c main_v13 (ix2 (rowOf t p) k) := by
  obtain ⟨e0, e1⟩ := idx1 t
  show iblk0 V c 1 t (ix2 p k) = _
  unfold iblk0
  rw [View.read_apply]
  show V c main_v13 _ = V c main_v13 _
  congr 1
  funext a
  apply Fin.ext
  match a with
  | ⟨0, _⟩ => show win0_1.index t 0 * 4000 + 1 * p.val = 4000 * t.val + p.val; rw [e0]; omega
  | ⟨1, _⟩ => show win0_1.index t 1 * 128 + 1 * k.val = k.val; rw [e1]; omega

/-- The weights and biases are read whole at every point. -/
private theorem xb2_eq (c : Dev nD) (t : Fin cfg0.N) : xb2 V c t = V c main_v15 := by
  obtain ⟨e0, e1⟩ := idx2 t
  funext y
  show iblk0 V c 2 t y = _
  unfold iblk0
  rw [View.read_apply]
  show V c main_v15 _ = V c main_v15 y
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

private theorem xb3_eq (c : Dev nD) (t : Fin cfg0.N) : xb3 V c t = V c main_v18 := by
  obtain ⟨e0, e1⟩ := idx3 t
  funext y
  show iblk0 V c 3 t y = _
  unfold iblk0
  rw [View.read_apply]
  show V c main_v18 _ = V c main_v18 y
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

private theorem xb4_eq (c : Dev nD) (t : Fin cfg0.N) : xb4 V c t = V c main_v17 := by
  obtain ⟨e0, e1⟩ := idx4 t
  funext y
  show iblk0 V c 4 t y = _
  unfold iblk0
  rw [View.read_apply]
  show V c main_v17 _ = V c main_v17 y
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

private theorem xb5_eq (c : Dev nD) (t : Fin cfg0.N) : xb5 V c t = V c main_v19 := by
  obtain ⟨e0, e1⟩ := idx5 t
  funext y
  show iblk0 V c 5 t y = _
  unfold iblk0
  rw [View.read_apply]
  show V c main_v19 _ = V c main_v19 y
  congr 1
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

/-! ## What the body leaves at a point -/

/-- The hidden block of point `t`: the body's arithmetic on the six blocks it reads there. -/
private abbrev hb (c : Dev nD) (t : Fin cfg0.N) : FVec Ideal S4000x128 .f32 :=
  k0_pay4 (F := Ideal) (xb0 V c t) (xb1 V c t) (xb2 V c t) (xb3 V c t) (xb4 V c t) (xb5 V c t)

/-- The first result's buffer holds the hidden block after every point. -/
private theorem outs6 (c : Dev nD) (t : Fin cfg0.N) : (outsAt0 V c t.val t.isLt).1 = hb V c t := by
  by_cases h0 : t.val % 25 = 0
  · rw [outsAt0_A V c t h0]
    dsimp only
    exact pieceA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact pieceB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- The first point leaves the block's column sums over the zeros it has just stored. -/
private theorem outs7_A (c : Dev nD) (t : Fin cfg0.N) (h0 : t.val % 25 = 0) (y : S1x128.Idx) :
    (outsAt0 V c t.val t.isLt).2.1 y = ∑ p : Fin 4000, hb V c t (ix2 p (y 1)) := by
  rw [outsAt0_A V c t h0]
  dsimp only
  rw [pieceA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)]
  rw [pay5_apply, pay2_apply, zero_add]

private theorem outs8_A (c : Dev nD) (t : Fin cfg0.N) (h0 : t.val % 25 = 0) (y : S1x128.Idx) :
    (outsAt0 V c t.val t.isLt).2.2 y = ∑ p : Fin 4000, hb V c t (ix2 p (y 1)) * hb V c t (ix2 p (y 1)) := by
  rw [outsAt0_A V c t h0]
  dsimp only
  rw [pieceA8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)]
  rw [pay1_apply, pay3_apply, zero_add]

/-- A later point adds the block's column sums to what the point before left. -/
private theorem outs7_B (c : Dev nD) (t : Fin cfg0.N) (h0 : ¬t.val % 25 = 0) (y : S1x128.Idx) :
    (outsAt0 V c t.val t.isLt).2.1 y
      = (outsAt0 V c (t.val - 1) (Nat.lt_of_le_of_lt (Nat.sub_le _ _) t.isLt)).2.1 y + ∑ p : Fin 4000, hb V c t (ix2 p (y 1)) := by
  rw [outsAt0_B V c t h0]
  dsimp only
  rw [pieceB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2]
  rw [pay5_apply]

private theorem outs8_B (c : Dev nD) (t : Fin cfg0.N) (h0 : ¬t.val % 25 = 0) (y : S1x128.Idx) :
    (outsAt0 V c t.val t.isLt).2.2 y
      = (outsAt0 V c (t.val - 1) (Nat.lt_of_le_of_lt (Nat.sub_le _ _) t.isLt)).2.2 y + ∑ p : Fin 4000, hb V c t (ix2 p (y 1)) * hb V c t (ix2 p (y 1)) := by
  rw [outsAt0_B V c t h0]
  dsimp only
  rw [pieceB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2]
  rw [pay1_apply]

/-! ## The hidden block is the block of the hidden array -/

/-- A layer reads only the row of its entry: on the block of point `t` of an array it is the layer of the array at
    the block's rows. -/
private theorem layerB_eq (t : Fin cfg0.N) (x : S4000x128.Idx → EReal) (X : Cert.Spec.SN.Idx → EReal)
    (wt : S128x128.Idx → EReal) (b : S1x128.Idx → EReal)
    (hx : ∀ (p : Fin 4000) (k : Fin 128), x (ix2 p k) = X (ix2 (rowOf t p) k)) (p : Fin 4000) (j : Fin 128) :
    layerB x wt b (ix2 p j) = Cert.Spec.layer X wt b (ix2 (rowOf t p) j) := by
  show max ((∑ k : Fin 128, x (ix2 p k) * wt (ix2 k j)) + b (ix2 0 j)) 0
    = max ((∑ k : Fin 128, X (ix2 (rowOf t p) k) * wt (ix2 k j)) + b (ix2 0 j)) 0
  simp only [hx]

/-- The hidden block of point `t` at (p, j) is the hidden array at (4000 t + p, j). -/
private theorem hb_apply (c : Dev nD) (t : Fin cfg0.N) (p : Fin 4000) (j : Fin 128) :
    hb V c t (ix2 p j) = Hk V c (ix2 (rowOf t p) j) := by
  show k0_pay4 (F := Ideal) (xb0 V c t) (xb1 V c t) (xb2 V c t) (xb3 V c t) (xb4 V c t) (xb5 V c t) (ix2 p j) = _
  rw [pay4_eq, xb2_eq, xb3_eq, xb4_eq, xb5_eq]
  exact layerB_eq t _ _ _ _ (fun p k => layerB_eq t _ _ _ _ (fun p k => by rw [xb0_apply, xb1_apply]) p k) p j

/-! ## The running sums -/

/-- Column `j` of the hidden array at row `r`, nothing past the last row: the summand of a sum over rows below a bound. -/
private def Hrow (c : Dev nD) (j : Fin 128) (r : ℕ) : EReal :=
  if h : r < 100000 then Hk V c (ix2 ⟨r, h⟩ j) else 0

private theorem Hrow_rowOf (c : Dev nD) (j : Fin 128) (t : Fin cfg0.N) (p : Fin 4000) :
    Hrow V c j (4000 * t.val + p.val) = Hk V c (ix2 (rowOf t p) j) :=
  dif_pos (rowOf t p).isLt

/-- The column sums of the hidden block of point `t` are the sums over rows 4000 t … 4000 t + 3999 of the array. -/
private theorem blockSum (c : Dev nD) (t : Fin cfg0.N) (j : Fin 128) :
    ∑ p : Fin 4000, hb V c t (ix2 p j) = ∑ p ∈ Finset.range 4000, Hrow V c j (4000 * t.val + p) := by
  rw [Finset.sum_range]
  exact Finset.sum_congr rfl fun p _ => (hb_apply V c t p j).trans (Hrow_rowOf V c j t p).symm

private theorem blockSumSq (c : Dev nD) (t : Fin cfg0.N) (j : Fin 128) :
    ∑ p : Fin 4000, hb V c t (ix2 p j) * hb V c t (ix2 p j)
      = ∑ p ∈ Finset.range 4000, Hrow V c j (4000 * t.val + p) * Hrow V c j (4000 * t.val + p) := by
  rw [Finset.sum_range]
  exact Finset.sum_congr rfl fun p _ => by rw [hb_apply, Hrow_rowOf]

/-- After point `n` the second result's buffer holds the column sums over the rows below 4000 (n + 1). -/
private theorem acc7 (c : Dev nD) : ∀ (n : ℕ) (h : n < cfg0.N) (y : S1x128.Idx),
    (outsAt0 V c n h).2.1 y = ∑ r ∈ Finset.range (4000 * n + 4000), Hrow V c (y 1) r
  | 0, h, y => by
    rw [Finset.sum_range_add, Nat.mul_zero, Finset.sum_range_zero, zero_add]
    exact (outs7_A V c ⟨0, h⟩ rfl y).trans (blockSum V c ⟨0, h⟩ (y 1))
  | n + 1, h, y => by
    have hB : ¬(⟨n + 1, h⟩ : Fin cfg0.N).val % 25 = 0 := by
      have := hN; show ¬(n + 1) % 25 = 0; omega
    rw [Finset.sum_range_add, show 4000 * (n + 1) = 4000 * n + 4000 from by omega,
      ← acc7 c n (Nat.lt_of_succ_lt h) y]
    exact (outs7_B V c ⟨n + 1, h⟩ hB y).trans (congrArg _ (blockSum V c ⟨n + 1, h⟩ (y 1)))

/-- And the third the column sums of the squares. -/
private theorem acc8 (c : Dev nD) : ∀ (n : ℕ) (h : n < cfg0.N) (y : S1x128.Idx),
    (outsAt0 V c n h).2.2 y = ∑ r ∈ Finset.range (4000 * n + 4000), Hrow V c (y 1) r * Hrow V c (y 1) r
  | 0, h, y => by
    rw [Finset.sum_range_add, Nat.mul_zero, Finset.sum_range_zero, zero_add]
    exact (outs8_A V c ⟨0, h⟩ rfl y).trans (blockSumSq V c ⟨0, h⟩ (y 1))
  | n + 1, h, y => by
    have hB : ¬(⟨n + 1, h⟩ : Fin cfg0.N).val % 25 = 0 := by
      have := hN; show ¬(n + 1) % 25 = 0; omega
    rw [Finset.sum_range_add, show 4000 * (n + 1) = 4000 * n + 4000 from by omega,
      ← acc8 c n (Nat.lt_of_succ_lt h) y]
    exact (outs8_B V c ⟨n + 1, h⟩ hB y).trans (congrArg _ (blockSumSq V c ⟨n + 1, h⟩ (y 1)))

/-- The sum over all the rows below 100000 is the column sum of the array. -/
private theorem sum_Hrow (c : Dev nD) (j : Fin 128) :
    ∑ r ∈ Finset.range 100000, Hrow V c j r = ∑ r : Fin 100000, Hk V c (ix2 r j) := by
  rw [Finset.sum_range]
  exact Finset.sum_congr rfl fun r _ => dif_pos r.isLt

private theorem sum_Hrow_sq (c : Dev nD) (j : Fin 128) :
    ∑ r ∈ Finset.range 100000, Hrow V c j r * Hrow V c j r
      = ∑ r : Fin 100000, Hk V c (ix2 r j) * Hk V c (ix2 r j) := by
  rw [Finset.sum_range]
  exact Finset.sum_congr rfl fun r _ => by rw [show Hrow V c j r.val = Hk V c (ix2 r j) from dif_pos r.isLt]

/-! ## The write-backs and what they cover -/

/-- The write-back of point `t` is block `t` of the hidden array. -/
private theorem flushed6 (c : Dev nD) (t : Fin cfg0.N) (hf : (cfg0.win 6).flush t = true) :
    (dat0 (F := Ideal) V c).flushed 6 t = ((cfg0.win 6).blk t).view.read (Elt Ideal) (Hk V c) := by
  obtain ⟨e0, e1⟩ := idx6 t
  show (cfg0.win 6).cut (grid0.coords t) ((dat0 (F := Ideal) V c).after 6 t) = _
  rw [after0_6, outs6]
  funext y
  obtain ⟨p, k, rfl⟩ : ∃ (p : Fin 4000) (k : Fin 128), y = ix2 p k := ⟨y 0, y 1, eq_ix2 y⟩
  rw [View.read_apply]
  show hb V c t (ix2 p k) = Hk V c _
  rw [hb_apply]
  congr 1
  funext a
  apply Fin.ext
  match a with
  | ⟨0, _⟩ => show 4000 * t.val + p.val = win0_6.index t 0 * 4000 + 1 * p.val; rw [e0]; omega
  | ⟨1, _⟩ => show k.val = win0_6.index t 1 * 128 + 1 * k.val; rw [e1]; omega

/-- Row `r` lies in the block of point `r / 4000`. -/
private theorem mem_blk6 (t : Fin cfg0.N) (i : Cert.Spec.SN.Idx) (h : t.val = (i 0).val / 4000) :
    i ∈ ((cfg0.win 6).blk t).view.set := by
  obtain ⟨e0, e1⟩ := idx6 t
  show i ∈ ((View.whole main_v20_0).slice (win0_6.rect t)).set
  rw [View.set_slice_whole, Rect.mem_set_unit]
  intro a
  have h0 : (i 0).val < 100000 := (i 0).isLt
  have h1 : (i 1).val < 128 := (i 1).isLt
  match a with
  | ⟨0, _⟩ =>
    show win0_6.index t 0 * 4000 ≤ (i 0).val ∧ (i 0).val < win0_6.index t 0 * 4000 + 4000
    rw [e0, h]; omega
  | ⟨1, _⟩ =>
    show win0_6.index t 1 * 128 ≤ (i 1).val ∧ (i 1).val < win0_6.index t 1 * 128 + 128
    rw [e1]; omega

/-- A column statistic reads only the column of its entry. -/
private theorem colsum_congr (h : Cert.Spec.SN.Idx → EReal) (i i' : Cert.Spec.SR.Idx) (e : i 1 = i' 1) :
    Cert.Spec.colsum h i = Cert.Spec.colsum h i' := by
  show ∑ r : Fin 100000, h (ix2 r (i 1)) = ∑ r : Fin 100000, h (ix2 r (i' 1))
  rw [e]

private theorem colsumsq_congr (h : Cert.Spec.SN.Idx → EReal) (i i' : Cert.Spec.SR.Idx) (e : i 1 = i' 1) :
    Cert.Spec.colsumsq h i = Cert.Spec.colsumsq h i' := by
  show ∑ r : Fin 100000, h (ix2 r (i 1)) * h (ix2 r (i 1)) = ∑ r : Fin 100000, h (ix2 r (i' 1)) * h (ix2 r (i' 1))
  rw [e]

/-- After the last point the running sums are the column sums over all the rows. -/
private theorem last7 (c : Dev nD) (t : Fin cfg0.N) (h24 : t.val = 24) (y : Cert.Spec.SR.Idx) :
    (outsAt0 V c t.val t.isLt).2.1 y = Cert.Spec.colsum (Hk V c) y := by
  show _ = ∑ r : Fin 100000, Hk V c (ix2 r (y 1))
  rw [acc7 V c t.val t.isLt y, h24]
  exact sum_Hrow V c (y 1)

private theorem last8 (c : Dev nD) (t : Fin cfg0.N) (h24 : t.val = 24) (y : Cert.Spec.SR.Idx) :
    (outsAt0 V c t.val t.isLt).2.2 y = Cert.Spec.colsumsq (Hk V c) y := by
  show _ = ∑ r : Fin 100000, Hk V c (ix2 r (y 1)) * Hk V c (ix2 r (y 1))
  rw [acc8 V c t.val t.isLt y, h24]
  exact sum_Hrow_sq V c (y 1)

/-- The one write-back of the second result, after the last point, writes the column sums of the hidden array. -/
private theorem flushed7 (c : Dev nD) (t : Fin cfg0.N) (hf : (cfg0.win 7).flush t = true) :
    (dat0 (F := Ideal) V c).flushed 7 t
      = ((cfg0.win 7).blk t).view.read (Elt Ideal) (Cert.Spec.colsum (Hk V c)) := by
  obtain ⟨e0, e1⟩ := idx7 t
  have h24 : t.val = 24 := by have := (flush0_7 t).mp hf; have := t.isLt; have := hN; omega
  show (cfg0.win 7).cut (grid0.coords t) ((dat0 (F := Ideal) V c).after 7 t) = _
  rw [after0_7]
  funext y
  have he : (((cfg0.win 7).blk t).view.emb y) 1 = y 1 :=
    Fin.ext (by show win0_7.index t 1 * 128 + 1 * (y 1).val = (y 1).val; rw [e1]; omega)
  rw [View.read_apply]
  refine (last7 V c t h24 y).trans ?_
  refine (colsum_congr (Hk V c) y (((cfg0.win 7).blk t).view.emb y) he.symm).trans ?_
  exact (cast_eq _ _).symm

/-- And that of the third the column sums of its squares. -/
private theorem flushed8 (c : Dev nD) (t : Fin cfg0.N) (hf : (cfg0.win 8).flush t = true) :
    (dat0 (F := Ideal) V c).flushed 8 t
      = ((cfg0.win 8).blk t).view.read (Elt Ideal) (Cert.Spec.colsumsq (Hk V c)) := by
  obtain ⟨e0, e1⟩ := idx8 t
  have h24 : t.val = 24 := by have := (flush0_8 t).mp hf; have := t.isLt; have := hN; omega
  show (cfg0.win 8).cut (grid0.coords t) ((dat0 (F := Ideal) V c).after 8 t) = _
  rw [after0_8]
  funext y
  have he : (((cfg0.win 8).blk t).view.emb y) 1 = y 1 :=
    Fin.ext (by show win0_8.index t 1 * 128 + 1 * (y 1).val = (y 1).val; rw [e1]; omega)
  rw [View.read_apply]
  refine (last8 V c t h24 y).trans ?_
  refine (colsumsq_congr (Hk V c) y (((cfg0.win 8).blk t).view.emb y) he.symm).trans ?_
  exact (cast_eq _ _).symm

/-- The last point's block of a row vector is the whole row vector. -/
private theorem mem_blk7 (t : Fin cfg0.N) (i : Cert.Spec.SR.Idx) : i ∈ ((cfg0.win 7).blk t).view.set := by
  obtain ⟨e0, e1⟩ := idx7 t
  show i ∈ ((View.whole main_v20_1).slice (win0_7.rect t)).set
  rw [View.set_slice_whole, Rect.mem_set_unit]
  intro a
  have h0 : (i 0).val < 1 := (i 0).isLt
  have h1 : (i 1).val < 128 := (i 1).isLt
  match a with
  | ⟨0, _⟩ =>
    show win0_7.index t 0 * 1 ≤ (i 0).val ∧ (i 0).val < win0_7.index t 0 * 1 + 1
    rw [e0]; omega
  | ⟨1, _⟩ =>
    show win0_7.index t 1 * 128 ≤ (i 1).val ∧ (i 1).val < win0_7.index t 1 * 128 + 128
    rw [e1]; omega

private theorem mem_blk8 (t : Fin cfg0.N) (i : Cert.Spec.SR.Idx) : i ∈ ((cfg0.win 8).blk t).view.set := by
  obtain ⟨e0, e1⟩ := idx8 t
  show i ∈ ((View.whole main_v20_2).slice (win0_8.rect t)).set
  rw [View.set_slice_whole, Rect.mem_set_unit]
  intro a
  have h0 : (i 0).val < 1 := (i 0).isLt
  have h1 : (i 1).val < 128 := (i 1).isLt
  match a with
  | ⟨0, _⟩ =>
    show win0_8.index t 0 * 1 ≤ (i 0).val ∧ (i 0).val < win0_8.index t 0 * 1 + 1
    rw [e0]; omega
  | ⟨1, _⟩ =>
    show win0_8.index t 1 * 128 ≤ (i 1).val ∧ (i 1).val < win0_8.index t 1 * 128 + 128
    rw [e1]; omega

/-- The last point. -/
private def tLast : Fin cfg0.N := ⟨24, by rw [hN]; decide⟩

/-! ## The three result arrays -/

/-- Result 0 ends holding the hidden array. -/
theorem arr6 (c : Dev nD) : (dat0 (F := Ideal) V c).arrAt 6 cfg0.N = Hk V c := by
  exact (dat0 (F := Ideal) V c).arrAt_eq_of_cover 6 (Hk V c) (flushed6 V c) fun (i : Cert.Spec.SN.Idx) =>
    ⟨⟨(i 0).val / 4000, by have h0 : (i 0).val < 100000 := (i 0).isLt; have := hN; omega⟩, flush0_6 _,
      mem_blk6 _ i rfl⟩

/-- Result 1 ends holding the column sums of the hidden array. -/
theorem arr7 (c : Dev nD) : (dat0 (F := Ideal) V c).arrAt 7 cfg0.N = Cert.Spec.colsum (Hk V c) := by
  exact (dat0 (F := Ideal) V c).arrAt_eq_of_cover 7 (Cert.Spec.colsum (Hk V c)) (flushed7 V c)
    fun (i : Cert.Spec.SR.Idx) => ⟨tLast, (flush0_7 tLast).mpr rfl, mem_blk7 tLast i⟩

/-- Result 2 ends holding the column sums of its squares. -/
theorem arr8 (c : Dev nD) : (dat0 (F := Ideal) V c).arrAt 8 cfg0.N = Cert.Spec.colsumsq (Hk V c) := by
  exact (dat0 (F := Ideal) V c).arrAt_eq_of_cover 8 (Cert.Spec.colsumsq (Hk V c)) (flushed8 V c)
    fun (i : Cert.Spec.SR.Idx) => ⟨tLast, (flush0_8 tLast).mpr rfl, mem_blk8 tLast i⟩

end Cert.KernelIdeal.Reg0

end
-- ==== Proof.Reg1Value.lean ====
/-
  What the second region leaves in its result array, whatever contents V it is entered at: the normalisation
  (h − μ) · ρ · γ + β of its first input by its four row vectors — block t of the result is the body's pointwise
  expression on rows 4000 t … 4000 t + 3999, the row vectors read at the entry's column, and the 25 blocks cover it.
-/
import proofs.«166746_j87703232184759_1_alg».proof.Proof.Gen.KernelIdeal.Frame
import proofs.«166746_j87703232184759_1_alg».proof.Proof.Spec
import Idealize.ShloMosaic.Lib.ValueIdx
import Idealize.ShloMosaic.Lib.ValueLayout
import Idealize.ShloMosaic.Lib.Pipeline.Value
import Idealize.ShloMosaic.Lib.Tactic

noncomputable section

namespace Cert.KernelIdeal.Reg1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offset of a whole block, as a function. -/
private theorem hz : (![0, 0] : Fin 2 → Nat) = fun _ => 0 := funext fun a => by fin_cases a <;> rfl

/-- A row vector [1, 128] spread over 4000 rows, read at (p, q), is the row vector at column q. -/
private theorem bcast_apply (x : FVec Ideal S1x128 .f32) (p : Fin 4000) (q : Fin 128) :
    broadcastTo S4000x128 x broadcasts_S1x128_S4000x128 (ix2 p q) = x (ix2 0 q) :=
  broadcastTo_apply x _ (ix2 p q) (ix2 0 q) (fun a => by match a with | ⟨0, _⟩ => rfl | ⟨1, _⟩ => rfl)

/-- The body's expression at entry (p, q) of a block: (x₀[p, q] − x₁[0, q]) · x₂[0, q] · x₃[0, q] + x₄[0, q]. -/
private theorem pay_apply (x0 : FVec Ideal S4000x128 .f32) (x1 x2 x3 x4 : FVec Ideal S1x128 .f32) (p : Fin 4000) (q : Fin 128) :
    k1_pay1 (F := Ideal) x0 x1 x2 x3 x4 (ix2 p q)
      = (x0 (ix2 p q) - x1 (ix2 0 q)) * x2 (ix2 0 q) * x3 (ix2 0 q) + x4 (ix2 0 q) := by
  unfold k1_pay1
  simp only [shapeCast_self]
  rw [addf_apply, mulf_apply, mulf_apply, subf_apply, bcast_apply, bcast_apply, bcast_apply, bcast_apply]

/-- One entry: when the block x₀ at j is the array h at i, the columns of i and j agree, and the four row blocks are
    the four row vectors, the body's expression at j is the normalisation at i. -/
private theorem point_eq (x0 : FVec Ideal S4000x128 .f32) (x1 x2 x3 x4 : FVec Ideal S1x128 .f32)
    (h : Cert.Spec.SN.Idx → EReal) (mu rho g bt : Cert.Spec.SR.Idx → EReal) (j : S4000x128.Idx) (i : Cert.Spec.SN.Idx)
    (hi1 : (i 1).val = (j 1).val) (h0 : x0 j = h i)
    (h1 : ∀ q : Fin 128, x1 (ix2 0 q) = mu (ix2 0 q)) (h2 : ∀ q : Fin 128, x2 (ix2 0 q) = rho (ix2 0 q))
    (h3 : ∀ q : Fin 128, x3 (ix2 0 q) = g (ix2 0 q)) (h4 : ∀ q : Fin 128, x4 (ix2 0 q) = bt (ix2 0 q)) :
    k1_pay1 (F := Ideal) x0 x1 x2 x3 x4 j = Cert.Spec.bn h mu rho g bt i := by
  obtain ⟨p, q, rfl⟩ : ∃ (p : Fin 4000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [pay_apply, h0, h1, h2, h3, h4]
  rfl

/-- The block indices over the 25 points: the first input and the result move down the rows, block (t, 0) at point t;
    each row vector stays at its one block (0, 0). -/
private theorem idx_facts : ∀ t : Fin cfg1.N, win1_0.index t 0 = t.val ∧ win1_0.index t 1 = 0
    ∧ win1_5.index t 0 = t.val ∧ win1_5.index t 1 = 0
    ∧ win1_1.index t 0 = 0 ∧ win1_1.index t 1 = 0
    ∧ win1_2.index t 0 = 0 ∧ win1_2.index t 1 = 0
    ∧ win1_3.index t 0 = 0 ∧ win1_3.index t 1 = 0
    ∧ win1_4.index t 0 = 0 ∧ win1_4.index t 1 = 0 :=
  (by decide +kernel : ∀ t : Fin grid1.N, _)

/-- What point t writes back is block t of the normalisation: entry (p, q) of the block is row 4000 t + p, column q,
    where the first input's block holds h at that same entry and each row block holds its row vector. -/
private theorem flushed_eq (c : Dev nD) (t : Fin cfg1.N) :
    (dat1 (F := Ideal) V c).flushed 5 t = ((cfg1.win 5).blk t).view.read (Elt Ideal)
      (Cert.Spec.bn (V c main_v20_0) (V c main_v22) (V c main_v29) (V c main_v30) (V c main_v31)) := by
  show (cfg1.win 5).cut (grid1.coords t) ((dat1 V c).after 5 t) = _
  rw [after1_5]
  unfold out1_5
  rw [View.canon_unit_zero hz]
  simp only [View.ld_unit_zero (S := S4000x128) hz, View.ld_unit_zero (S := S1x128) hz]
  obtain ⟨a0, a1, o0, o1, m0, m1, r0, r1, g0, g1, b0, b1⟩ := idx_facts t
  funext j
  show k1_pay1 (F := Ideal) (iblk1 V c 0 t) (iblk1 V c 1 t) (iblk1 V c 2 t) (iblk1 V c 3 t) (iblk1 V c 4 t) j
    = Cert.Spec.bn (V c main_v20_0) (V c main_v22) (V c main_v29) (V c main_v30) (V c main_v31) (((cfg1.win 5).blk t).view.emb j)
  refine point_eq _ _ _ _ _ _ _ _ _ _ j _ ?_ ?_ ?_ ?_ ?_ ?_
  · show win1_5.index t 1 * 128 + 1 * (j 1).val = (j 1).val
    rw [o1]; omega
  · show V c main_v20_0 (((cfg1.win 0).blk t).view.emb j) = V c main_v20_0 (((cfg1.win 5).blk t).view.emb j)
    have e : ((cfg1.win 0).blk t).view.emb j = ((cfg1.win 5).blk t).view.emb j := by
      funext a; apply Fin.ext
      match a with
      | ⟨0, _⟩ => show win1_0.index t 0 * 4000 + 1 * (j 0).val = win1_5.index t 0 * 4000 + 1 * (j 0).val; rw [a0, o0]
      | ⟨1, _⟩ => show win1_0.index t 1 * 128 + 1 * (j 1).val = win1_5.index t 1 * 128 + 1 * (j 1).val; rw [a1, o1]
    rw [e]
  · intro q
    show V c main_v22 (((cfg1.win 1).blk t).view.emb (ix2 0 q)) = V c main_v22 (ix2 0 q)
    have e : ((cfg1.win 1).blk t).view.emb (ix2 0 q) = ix2 0 q := by
      funext a; apply Fin.ext
      match a with
      | ⟨0, _⟩ => show win1_1.index t 0 * 1 + 1 * 0 = 0; rw [m0]
      | ⟨1, _⟩ => show win1_1.index t 1 * 128 + 1 * q.val = q.val; rw [m1]; omega
    rw [e]
  · intro q
    show V c main_v29 (((cfg1.win 2).blk t).view.emb (ix2 0 q)) = V c main_v29 (ix2 0 q)
    have e : ((cfg1.win 2).blk t).view.emb (ix2 0 q) = ix2 0 q := by
      funext a; apply Fin.ext
      match a with
      | ⟨0, _⟩ => show win1_2.index t 0 * 1 + 1 * 0 = 0; rw [r0]
      | ⟨1, _⟩ => show win1_2.index t 1 * 128 + 1 * q.val = q.val; rw [r1]; omega
    rw [e]
  · intro q
    show V c main_v30 (((cfg1.win 3).blk t).view.emb (ix2 0 q)) = V c main_v30 (ix2 0 q)
    have e : ((cfg1.win 3).blk t).view.emb (ix2 0 q) = ix2 0 q := by
      funext a; apply Fin.ext
      match a with
      | ⟨0, _⟩ => show win1_3.index t 0 * 1 + 1 * 0 = 0; rw [g0]
      | ⟨1, _⟩ => show win1_3.index t 1 * 128 + 1 * q.val = q.val; rw [g1]; omega
    rw [e]
  · intro q
    show V c main_v31 (((cfg1.win 4).blk t).view.emb (ix2 0 q)) = V c main_v31 (ix2 0 q)
    have e : ((cfg1.win 4).blk t).view.emb (ix2 0 q) = ix2 0 q := by
      funext a; apply Fin.ext
      match a with
      | ⟨0, _⟩ => show win1_4.index t 0 * 1 + 1 * 0 = 0; rw [b0]
      | ⟨1, _⟩ => show win1_4.index t 1 * 128 + 1 * q.val = q.val; rw [b1]; omega
    rw [e]

/-- An entry of the result is in point t's block iff each coordinate is in the block's range on its axis. -/
private theorem mem_blk (t : Fin cfg1.N) (i : Cert.Spec.SN.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v32).slice (win1_5.rect t)).set ↔ _
  rw [View.set_slice_whole, Rect.mem_set_unit]
  exact Iff.rfl

/-- The 25 blocks of 4000 rows cover the 100000 rows: row r is in the block of point r / 4000. -/
private theorem cover (i : Cert.Spec.SN.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 4000 < cfg1.N := by have hN : cfg1.N = 25 := N_1; omega
  obtain ⟨t, ht⟩ : ∃ t : Fin cfg1.N, t.val = (i 0).val / 4000 := ⟨⟨_, hlt⟩, rfl⟩
  obtain ⟨-, -, o0, o1, -⟩ := idx_facts t
  refine ⟨t, flush1_5 t, ?_⟩
  rw [mem_blk]
  intro a
  match a with
  | ⟨0, _⟩ => show win1_5.index t 0 * 4000 ≤ (i 0).val ∧ (i 0).val < win1_5.index t 0 * 4000 + 4000; rw [o0, ht]; omega
  | ⟨1, _⟩ => show win1_5.index t 1 * 128 ≤ (i 1).val ∧ (i 1).val < win1_5.index t 1 * 128 + 128; rw [o1]; omega

/-- The result array ends holding the normalisation of the region's inputs. -/
theorem arr5 (c : Dev nD) : (dat1 (F := Ideal) V c).arrAt 5 cfg1.N
    = Cert.Spec.bn (V c main_v20_0) (V c main_v22) (V c main_v29) (V c main_v30) (V c main_v31) := by
  exact (dat1 (F := Ideal) V c).arrAt_eq_of_cover 5
    (Cert.Spec.bn (V c main_v20_0) (V c main_v22) (V c main_v29) (V c main_v30) (V c main_v31))
    (fun t _ => flushed_eq V c t) cover

end Cert.KernelIdeal.Reg1

end
-- ==== Proof.KernelSpec.lean ====
/-
  The idealized kernel's result array, as the specification's function of the argument arrays: the second region's
  normalisation of the first region's hidden array H by μ = ∑H / n and ρ = rsqrt (∑H² / n − μ · μ + ε) — the two
  column sums being what the first region accumulated.
-/
import proofs.«166746_j87703232184759_1_alg».proof.Proof.Gen.KernelIdeal.Frame
import proofs.«166746_j87703232184759_1_alg».proof.Proof.KernelValue
import proofs.«166746_j87703232184759_1_alg».proof.Proof.Reg0Value
import proofs.«166746_j87703232184759_1_alg».proof.Proof.Reg1Value
import proofs.«166746_j87703232184759_1_alg».proof.Proof.Spec
import Idealize.ShloMosaic.PureOps.Ideal
import Idealize.ShloMosaic.Lib.ValueIdx
import Idealize.ShloMosaic.Lib.Pipeline.Value

noncomputable section

namespace Cert.KernelIdeal.KSpec

open Idealize.ShloMosaic Idealize.ShloMosaic.TcCoe Idealize.ShloMosaic.ValueIdx Idealize.SL.Sem
open Cert.KernelIdeal Cert.KernelIdeal.Gen Cert.KernelIdeal.KValue

/-- The broadcast of a scalar float word reads as that word at every column. -/
theorem rowConst_apply (w : BitVec 32) (y : S1x128.Idx) : rowConst (F := Ideal) w y = Ideal.ofBits .f32 w := by
  unfold rowConst
  exact broadcastInDim_apply _ bcast_S_S1x128 (constant (F := Ideal) S_ .f32 w) y (fun a => a.elim0) (fun a => a.elim0)

/-- μ at a column: the accumulated sum over n. -/
theorem meanRow_apply (s1 : FVec Ideal S1x128 .f32) (y : S1x128.Idx) :
    meanRow (F := Ideal) s1 y = Ideal.div (s1 y) (Ideal.ofBits .f32 0x47C35000#32) := by
  show Ideal.div (s1 y) (rowConst (F := Ideal) 0x47C35000#32 y) = _
  rw [rowConst_apply]

/-- ρ at a column. -/
theorem rstdRow_apply (s1 s2 : FVec Ideal S1x128 .f32) (y : S1x128.Idx) :
    rstdRow (F := Ideal) s1 s2 y
      = Ideal.rsqrt ((Ideal.div (s2 y) (Ideal.ofBits .f32 0x47C35000#32)
          - Ideal.div (s1 y) (Ideal.ofBits .f32 0x47C35000#32) * Ideal.div (s1 y) (Ideal.ofBits .f32 0x47C35000#32))
          + Ideal.ofBits .f32 0x3727C5AC#32) := by
  show Ideal.rsqrt ((Ideal.div (s2 y) (rowConst (F := Ideal) 0x47C35000#32 y)
      - meanRow (F := Ideal) s1 y * meanRow (F := Ideal) s1 y) + rowConst (F := Ideal) 0x3727C5AC#32 y) = _
  rw [rowConst_apply, rowConst_apply, meanRow_apply]

/-- The kernel's value on core c, as a function of the launch memory: the specification's `kernelOut` of feature, the
    neighbour sums, the two transposed weights, and the biases, γ and β as rows. -/
def kout (m : (ℓ : Loc nD τ sig) → Buf (Elt Ideal) ℓ) (c : Dev nD) : Cert.Spec.SN.Idx → EReal :=
  Cert.Spec.kernelOut (Ideal.ofBits .f32 0x47C35000#32) (Ideal.ofBits .f32 0x3727C5AC#32)
    (m ((c : Thread nD τ).loc main_arg0)) (agg (F := Ideal) (m ((c : Thread nD τ).loc main_arg0)) (m ((c : Thread nD τ).loc main_arg1)))
    (wT (F := Ideal) (m ((c : Thread nD τ).loc main_arg2))) (rowOf (F := Ideal) (m ((c : Thread nD τ).loc main_arg3)))
    (wT (F := Ideal) (m ((c : Thread nD τ).loc main_arg4))) (rowOf (F := Ideal) (m ((c : Thread nD τ).loc main_arg5)))
    (rowOf (F := Ideal) (m ((c : Thread nD τ).loc main_arg6))) (rowOf (F := Ideal) (m ((c : Thread nD τ).loc main_arg7)))

variable (m : (ℓ : Loc nD τ sig) → Buf (Elt Ideal) ℓ) (ρ : Dev nD → PrngReg)

/-- THE KERNEL'S VALUE: the result array after the run is `kout`. -/
theorem result_eq (c : Dev nD) : W4 (F := Ideal) m ρ c (Proc.devRef .tc main_v32) = kout m c := by
  unfold kout
  refine ((W4_arr m ρ c 5).trans (Cert.KernelIdeal.Reg1.arr5 (V3 m ρ) c)).trans ?_
  rw [V3_v20_0, V3_v22, V3_v29, V3_v30, V3_v31, Cert.KernelIdeal.Reg0.arr6, Cert.KernelIdeal.Reg0.arr7,
    Cert.KernelIdeal.Reg0.arr8]
  unfold Cert.KernelIdeal.Reg0.Hk
  rw [V1_arg0, V1_v13, V1_v15, V1_v18, V1_v17, V1_v19]
  funext i
  unfold Cert.Spec.kernelOut Cert.Spec.bn Cert.Spec.meanK Cert.Spec.rstdK
  rw [meanRow_apply, rstdRow_apply]

end Cert.KernelIdeal.KSpec

end
-- ==== Proof.RefValue.lean ====
/-
  The reference's result, read index by index: it is the specification's `refOut` of the argument arrays, the
  neighbour sums carried as one term of feature and edge_index, the weights transposed, the vectors as rows.
-/
import proofs.«166746_j87703232184759_1_alg».proof.Proof.Gen.ReferenceIdeal.Run
import proofs.«166746_j87703232184759_1_alg».proof.Proof.Gen.ReferenceIdeal.Read
import proofs.«166746_j87703232184759_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ### The composed index maps are the coordinate constructors -/

private theorem l16 (i : S100000x128.Idx) (k : Fin 128) : lidx_main_v16 i k = ix2 (n0 := 100000) (n1 := 128) (i 0) k := funext fun a => Fin.ext (by match a with | ⟨0, _⟩ => rfl | ⟨1, _⟩ => rfl)
private theorem r16 (i : S100000x128.Idx) (k : Fin 128) : ridx_main_v16 i k = ix2 (n0 := 128) (n1 := 128) k (i 1) := funext fun a => Fin.ext (by match a with | ⟨0, _⟩ => rfl | ⟨1, _⟩ => rfl)
private theorem l23 (i : S100000x128.Idx) (k : Fin 128) : lidx_main_v23 i k = ix2 (n0 := 100000) (n1 := 128) (i 0) k := funext fun a => Fin.ext (by match a with | ⟨0, _⟩ => rfl | ⟨1, _⟩ => rfl)
private theorem r23 (i : S100000x128.Idx) (k : Fin 128) : ridx_main_v23 i k = ix2 (n0 := 128) (n1 := 128) k (i 1) := funext fun a => Fin.ext (by match a with | ⟨0, _⟩ => rfl | ⟨1, _⟩ => rfl)
private theorem row18 (i : S100000x128.Idx) : idx_main_v18 i = ix2 (n0 := 1) (n1 := 128) 0 (i 1) := funext fun a => Fin.ext (by match a with | ⟨0, _⟩ => rfl | ⟨1, _⟩ => rfl)
private theorem row25 (i : S100000x128.Idx) : idx_main_v25 i = ix2 (n0 := 1) (n1 := 128) 0 (i 1) := funext fun a => Fin.ext (by match a with | ⟨0, _⟩ => rfl | ⟨1, _⟩ => rfl)
private theorem row33 (i : S100000x128.Idx) : idx_main_v33 i = ix2 (n0 := 1) (n1 := 128) 0 (i 1) := funext fun a => Fin.ext (by match a with | ⟨0, _⟩ => rfl | ⟨1, _⟩ => rfl)
private theorem row40 (i : S100000x128.Idx) : idx_main_v40 i = ix2 (n0 := 1) (n1 := 128) 0 (i 1) := funext fun a => Fin.ext (by match a with | ⟨0, _⟩ => rfl | ⟨1, _⟩ => rfl)
private theorem row46 (i : S100000x128.Idx) : idx_main_v46 i = ix2 (n0 := 1) (n1 := 128) 0 (i 1) := funext fun a => Fin.ext (by match a with | ⟨0, _⟩ => rfl | ⟨1, _⟩ => rfl)
private theorem row49 (i : S100000x128.Idx) : idx_main_v49 i = ix2 (n0 := 1) (n1 := 128) 0 (i 1) := funext fun a => Fin.ext (by match a with | ⟨0, _⟩ => rfl | ⟨1, _⟩ => rfl)
private theorem row52 (i : S100000x128.Idx) : idx_main_v52 i = ix2 (n0 := 1) (n1 := 128) 0 (i 1) := funext fun a => Fin.ext (by match a with | ⟨0, _⟩ => rfl | ⟨1, _⟩ => rfl)
/-- Column j's r-th entry: the summation index of a column sum read through the row form of the statistic. -/
private theorem col29 (y : S1x128.Idx) (k : Fin 100000) : idx_main_v29 (idx_main_v32 y) k = ix2 (n0 := 100000) (n1 := 128) k (y 1) := funext fun a => Fin.ext (by match a with | ⟨0, _⟩ => rfl | ⟨1, _⟩ => rfl)
private theorem col29' (y : S1x128.Idx) (k : Fin 100000) : idx_main_v29 (idx_main_v39 y) k = ix2 (n0 := 100000) (n1 := 128) k (y 1) := funext fun a => Fin.ext (by match a with | ⟨0, _⟩ => rfl | ⟨1, _⟩ => rfl)
private theorem col36 (y : S1x128.Idx) (k : Fin 100000) : idx_main_v36 (idx_main_v45 y) k = ix2 (n0 := 100000) (n1 := 128) k (y 1) := funext fun a => Fin.ext (by match a with | ⟨0, _⟩ => rfl | ⟨1, _⟩ => rfl)

/-! ### One layer at a point, over any operands -/

private theorem layer_pt16 (X : S100000x128.Idx → EReal) (W : S128x128.Idx → EReal) (B : S1x128.Idx → EReal)
    (i : S100000x128.Idx) :
    max ((∑ k : Fin 128, X (lidx_main_v16 i k) * W (ridx_main_v16 i k)) + B (idx_main_v18 i)) 0
      = Cert.Spec.layer X W B i := by
  rw [row18]; simp only [l16, r16]; rfl

private theorem layer_pt23 (X : S100000x128.Idx → EReal) (W : S128x128.Idx → EReal) (B : S1x128.Idx → EReal)
    (i : S100000x128.Idx) :
    max ((∑ k : Fin 128, X (lidx_main_v23 i k) * W (ridx_main_v23 i k)) + B (idx_main_v25 i)) 0
      = Cert.Spec.layer X W B i := by
  rw [row25]; simp only [l23, r23]; rfl

/-! ### The hidden array -/

/-- The first layer over feature + neighbour sums. -/
private theorem v21_eq (x0 : (⟨S100000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) :
    val_main_v21 (F := Ideal) x0 x1 x2 x3
      = Cert.Spec.layer (fun i => x0 i + val_main_v13 (F := Ideal) x0 x1 i) (val_main_v15 (F := Ideal) x2)
          (val_main_v17 (F := Ideal) x3) := by
  have h14 : (fun i => x0 i + val_main_v13 (F := Ideal) x0 x1 i) = val_main_v14 (F := Ideal) x0 x1 := rfl
  rw [h14]
  funext i
  rw [val_main_v21_apply, val_main_v19_apply, val_main_v16_apply, val_main_v18_apply, val_main_v20_apply,
    val_main_cst_1_apply]
  simp only [Ideal.maximumf_def, Ideal.addf_def, Ideal.ofBits_def, Ideal.ofBits_zero_f32]
  exact layer_pt16 _ _ _ i

/-- The hidden array is two layers. -/
private theorem v28_eq (x0 : (⟨S100000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) :
    val_main_v28 (F := Ideal) x0 x1 x2 x3 x4 x5
      = Cert.Spec.hid x0 (val_main_v13 (F := Ideal) x0 x1) (val_main_v15 (F := Ideal) x2) (val_main_v17 (F := Ideal) x3)
          (val_main_v22 (F := Ideal) x4) (val_main_v24 (F := Ideal) x5) := by
  unfold Cert.Spec.hid
  rw [← v21_eq]
  funext i
  rw [val_main_v28_apply, val_main_v26_apply, val_main_v23_apply, val_main_v25_apply, val_main_v27_apply,
    val_main_cst_2_apply]
  simp only [Ideal.maximumf_def, Ideal.addf_def, Ideal.ofBits_def, Ideal.ofBits_zero_f32]
  exact layer_pt23 _ _ _ i

/-! ### The column means -/

/-- The mean of column j: (0 + the column's sum) / n. -/
private theorem v31_pt (x0 : (⟨S100000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) (j : S128.Idx) :
    val_main_v31 (F := Ideal) x0 x1 x2 x3 x4 x5 j
      = Ideal.div (0 + ∑ k : Fin 100000, val_main_v28 (F := Ideal) x0 x1 x2 x3 x4 x5 (idx_main_v29 j k))
          (Ideal.ofBits .f32 0x47C35000#32) := by
  rw [val_main_v31_apply, val_main_v29_apply, val_main_v30_apply, val_main_cst_3_apply, val_main_cst_4_apply]
  simp only [Ideal.hostDivf_def, Ideal.ofBits_def, Ideal.ofBits_zero_f32]

/-- The means as a row are the specification's. -/
private theorem v32_eq (x0 : (⟨S100000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) :
    val_main_v32 (F := Ideal) x0 x1 x2 x3 x4 x5
      = Cert.Spec.meanR (Ideal.ofBits .f32 0x47C35000#32) (val_main_v28 (F := Ideal) x0 x1 x2 x3 x4 x5) := by
  funext y
  rw [val_main_v32_apply, v31_pt]
  simp only [col29]
  rfl

private theorem v39_eq (x0 : (⟨S100000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) :
    val_main_v39 (F := Ideal) x0 x1 x2 x3 x4 x5
      = Cert.Spec.meanR (Ideal.ofBits .f32 0x47C35000#32) (val_main_v28 (F := Ideal) x0 x1 x2 x3 x4 x5) := by
  funext y
  rw [val_main_v39_apply, v31_pt]
  simp only [col29']
  rfl

/-! ### The centred second moment and its reciprocal root -/

/-- A statistic read at the row entry (0, j) is the statistic at any row index of column j. -/
private theorem meanR_row (n : EReal) (H : S100000x128.Idx → EReal) (y : S1x128.Idx) :
    Cert.Spec.meanR n H (ix2 0 (y 1)) = Cert.Spec.meanR n H y := rfl

private theorem v45_eq (x0 : (⟨S100000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) :
    val_main_v45 (F := Ideal) x0 x1 x2 x3 x4 x5
      = Cert.Spec.rstdR (Ideal.ofBits .f32 0x47C35000#32) (Ideal.ofBits .f32 0x3727C5AC#32)
          (val_main_v28 (F := Ideal) x0 x1 x2 x3 x4 x5) := by
  funext y
  rw [val_main_v45_apply, val_main_v44_apply, val_main_v43_apply, val_main_v38_apply, val_main_v36_apply,
    val_main_v37_apply, val_main_v42_apply, val_main_cst_5_apply, val_main_cst_6_apply, val_main_cst_7_apply]
  simp only [val_main_v35_apply, val_main_v34_apply, val_main_v33_apply, v32_eq,
    Ideal.hostUnary_rsqrt_def, Ideal.hostDivf_def, Ideal.addf_def, Ideal.mulf_def, Ideal.subf_def, Ideal.ofBits_def,
    Ideal.ofBits_zero_f32]
  simp only [col36, row33]
  rfl

/-- The reference's last stage is `refOut`: H by two layers over feature + neighbour sums, its column means, the
    centred second moment, the normalisation. -/
theorem ref_value (x0 : (⟨S100000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 x6 x7 : (⟨S128, .f32⟩ : BufTy).Contents (Elt Ideal)) :
    val_main_v53 (F := Ideal) x0 x1 x2 x3 x4 x5 x6 x7
      = Cert.Spec.refOut (Ideal.ofBits .f32 0x47C35000#32) (Ideal.ofBits .f32 0x3727C5AC#32) x0
          (val_main_v13 (F := Ideal) x0 x1) (val_main_v15 (F := Ideal) x2) (val_main_v17 (F := Ideal) x3)
          (val_main_v22 (F := Ideal) x4) (val_main_v24 (F := Ideal) x5) (val_main_v48 (F := Ideal) x6)
          (val_main_v51 (F := Ideal) x7) := by
  funext i
  rw [val_main_v53_apply, val_main_v50_apply, val_main_v47_apply, val_main_v41_apply, val_main_v40_apply,
    val_main_v46_apply, val_main_v49_apply, val_main_v52_apply, v39_eq, v45_eq, v28_eq]
  simp only [Ideal.addf_def, Ideal.mulf_def, Ideal.subf_def, row40, row46, row49, row52]
  rfl

end Cert.ReferenceIdeal.RefValue

end
-- ==== Proof.Algebra.lean ====
/-
  The laws that join the two programs' arithmetic, over no program.
-/
import proofs.«166746_j87703232184759_1_alg».proof.Proof.Spec
import Idealize.ShloMosaic.PureOps.Ideal.Laws

noncomputable section

namespace Cert.Spec

open Idealize.ShloMosaic Idealize.ShloMosaic.ValueIdx

/-! ### Closure of the real numbers inside the extended reals -/

private theorem isReal_zero : IsReal 0 := ⟨0, EReal.coe_zero.symm⟩

private theorem isReal_add {x y : EReal} (hx : IsReal x) (hy : IsReal y) : IsReal (x + y) := by
  obtain ⟨a, rfl⟩ := hx
  obtain ⟨b, rfl⟩ := hy
  exact ⟨a + b, (EReal.coe_add a b).symm⟩

private theorem isReal_mul {x y : EReal} (hx : IsReal x) (hy : IsReal y) : IsReal (x * y) := by
  obtain ⟨a, rfl⟩ := hx
  obtain ⟨b, rfl⟩ := hy
  exact ⟨a * b, (EReal.coe_mul a b).symm⟩

private theorem isReal_max_zero {x : EReal} (hx : IsReal x) : IsReal (max x 0) := by
  rcases le_total x 0 with h | h
  · rw [max_eq_right h]; exact isReal_zero
  · rw [max_eq_left h]; exact hx

private theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The coercion of a finite sum of reals is the sum of the coercions. -/
private theorem coe_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- The float word 0x47C35000 is the real number 100000. -/
theorem c1e5 : Ideal.ofBits .f32 0x47C35000#32 = ((100000 : ℝ) : EReal) := by
  simp [Ideal.ofBits, Ideal.ieee, -EReal.coe_mul]; norm_num

/-- A layer of real-valued arrays is real-valued: finite sums and products of reals, and a maximum with 0. -/
theorem isReal_layer (x : SN.Idx → EReal) (wt : SW.Idx → EReal) (b : SR.Idx → EReal)
    (hx : ∀ i, IsReal (x i)) (hw : ∀ i, IsReal (wt i)) (hb : ∀ i, IsReal (b i)) : ∀ i, IsReal (layer x wt b i) := by
  intro i
  unfold layer
  exact isReal_max_zero (isReal_add (isReal_sum _ _ (fun k _ => isReal_mul (hx _) (hw _))) (hb _))

/-- The hidden array of real-valued arguments is real-valued. -/
theorem isReal_hid (f a : SN.Idx → EReal) (w1t : SW.Idx → EReal) (b1 : SR.Idx → EReal) (w2t : SW.Idx → EReal)
    (b2 : SR.Idx → EReal) (hf : ∀ i, IsReal (f i)) (ha : ∀ i, IsReal (a i)) (hw1 : ∀ i, IsReal (w1t i))
    (hb1 : ∀ i, IsReal (b1 i)) (hw2 : ∀ i, IsReal (w2t i)) (hb2 : ∀ i, IsReal (b2 i)) :
    ∀ i, IsReal (hid f a w1t b1 w2t b2 i) := by
  unfold hid
  exact isReal_layer _ _ _ (isReal_layer _ _ _ (fun i => isReal_add (hf i) (ha i)) hw1 hb1) hw2 hb2

/-- An accumulating scatter of real-valued updates into a real-valued operand is real-valued: each entry is the
    operand's plus a finite sum of updates. -/
theorem isReal_scatterAdd {s si su : Shape} (d : ScatterDims s si su) {w : Nat} (x : s.Idx → EReal) (idx : IVec si w)
    (upd : su.Idx → EReal) (hx : ∀ i, IsReal (x i)) (hu : ∀ j, IsReal (upd j)) :
    ∀ i, IsReal (Ideal.hostScatterAdd d x idx upd i) := by
  intro i
  unfold Ideal.hostScatterAdd
  exact isReal_add (hx i) (isReal_sum _ _ (fun j _ => hu j))

/-- The identity over the reals, with m the mean of 100000 numbers:
    ∑ a² / n − m² = ∑ (a − m)² / n, since ∑ (a − m)² = ∑ a² − 2 m ∑ a + n m² and ∑ a = n m. -/
private theorem var_real (a : Fin 100000 → ℝ) (m : ℝ) (hm : m = (∑ r, a r) * (1 / 100000)) :
    (∑ r, a r * a r) * (1 / 100000) - m * m = (∑ r, (a r - m) * (a r - m)) * (1 / 100000) := by
  have h1 : ∑ r, (a r - m) * (a r - m) = ∑ r, a r * a r - 2 * m * ∑ r, a r + 100000 * (m * m) := by
    have h0 : ∀ r, (a r - m) * (a r - m) = a r * a r - 2 * m * a r + m * m := fun r => by ring
    simp only [h0, Finset.sum_add_distrib, Finset.sum_sub_distrib, ← Finset.mul_sum, Finset.sum_const,
      Finset.card_univ, Fintype.card_fin, nsmul_eq_mul]
    push_cast
    ring
  have hs : ∑ r, a r = 100000 * m := by rw [hm]; ring
  rw [h1, hs]; ring

/-- One column: the variance from the two accumulated sums is the centred second moment over n. -/
private theorem col_law (h : Fin 100000 → EReal) (hh : ∀ r, IsReal (h r)) (n : EReal)
    (hn : n = ((100000 : ℝ) : EReal)) :
    Ideal.div (∑ r, h r * h r) n - Ideal.div (∑ r, h r) n * Ideal.div (∑ r, h r) n
      = Ideal.div (0 + ∑ r, (h r - Ideal.div (0 + ∑ r, h r) n) * (h r - Ideal.div (0 + ∑ r, h r) n)) n := by
  choose a ha using hh
  subst hn
  obtain rfl : h = fun r => (a r : EReal) := funext ha
  simp only [zero_add]
  rw [Ideal.div_coe (by norm_num), Ideal.div_coe (by norm_num), Ideal.div_coe (by norm_num)]
  simp only [← EReal.coe_mul, ← coe_sum, ← EReal.coe_sub]
  exact congrArg _ (var_real a _ rfl)

/-- The normalisation at an entry reads μ and ρ only at the entry's column. -/
private theorem bn_congr (h : SN.Idx → EReal) (mu mu' rho rho' g bt : SR.Idx → EReal) (i : SN.Idx)
    (h1 : mu (ix2 0 (i 1)) = mu' (ix2 0 (i 1))) (h2 : rho (ix2 0 (i 1)) = rho' (ix2 0 (i 1))) :
    bn h mu rho g bt i = bn h mu' rho' g bt i := by
  unfold bn
  rw [h1, h2]

/-- THE LAW. With every entry of the hidden array a real number and n the real 100000 (the number of rows), the
    kernel's variance ∑H²/n − (∑H/n)² is the reference's ∑(H − μ)²/n, column by column, so the two outputs agree. -/
theorem kernelOut_eq_refOut (n eps : EReal) (hn : n = ((100000 : ℝ) : EReal)) (f a : SN.Idx → EReal)
    (w1t : SW.Idx → EReal) (b1 : SR.Idx → EReal) (w2t : SW.Idx → EReal) (b2 g bt : SR.Idx → EReal)
    (hH : ∀ i, IsReal (hid f a w1t b1 w2t b2 i)) :
    kernelOut n eps f a w1t b1 w2t b2 g bt = refOut n eps f a w1t b1 w2t b2 g bt := by
  funext i
  have hc := col_law (fun r => hid f a w1t b1 w2t b2 (ix2 r (i 1))) (fun r => hH _) n hn
  unfold kernelOut refOut
  apply bn_congr
  · exact congrArg (fun v => Ideal.div v n) (zero_add _).symm
  · exact congrArg (fun v => Ideal.rsqrt (v + eps)) hc

end Cert.Spec

end
-- ==== Proof.Finite.lean ====
/-
  From the precondition to numbers: every float input the hidden array depends on holds real numbers.
-/
import proofs.«166746_j87703232184759_1_alg».proof.Pre_finite_inputs
import proofs.«166746_j87703232184759_1_alg».proof.Proof.Gen.Pre_finite_inputs
import proofs.«166746_j87703232184759_1_alg».proof.Proof.Spec
import Idealize.ShloMosaic.Lib.ReduceAll
import Idealize.ShloMosaic.Lib.ValueIdx
import Idealize.ShloMosaic.Lib.IdealHost

noncomputable section

namespace Cert.Finite

open Idealize.ShloMosaic Cert.Pre_finite_inputs Cert.Spec

/-- The rank-0 shape has one index. -/
private instance subsingleton_scalar_idx : Subsingleton S_.Idx := ⟨fun a b => funext fun d => d.elim0⟩

/-- The word 0x7F800000 is +∞. -/
private theorem ofBits_inf : Ideal.ofBits .f32 0x7F800000#32 = (⊤ : EReal) := by
  simp [Ideal.ofBits, Ideal.ieee]

/-- One entry: |x| < +∞, as the comparison's bit, makes x a real number — max x (−x) is ⊤ at both infinities. -/
private theorem isReal_of_abs_lt (x : EReal)
    (h : Ideal.cmp .olt (max x (-x)) (Ideal.ofBits .f32 0x7F800000#32) = 1#1) : IsReal x := by
  rw [ofBits_inf] at h
  unfold Ideal.cmp at h
  induction x using EReal.rec with
  | bot => simp at h
  | top => simp at h
  | coe r => exact ⟨r, rfl⟩

/-- One array: the conjunction over all entries of |x| < +∞ being true makes every entry a real number. -/
private theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, IsReal (x i) := by
  intro i
  have hi := Host.reduce_andi_all _ _ hr hu _ e i
  rw [ValueIdx.cmpf_apply, ValueIdx.broadcastInDim_scalar_apply] at hi
  exact isReal_of_abs_lt (x i) hi

/-- The precondition (|x| < +∞ at every entry of every float input, all conjoined) gives: feature, both weight
    matrices and both biases hold real numbers at every index. -/
theorem real_of_pre (x0 : FVec Ideal S100000x128 .f32) (x1 : IVec S2x400000 32) (x2 : FVec Ideal S128x128 .f32)
    (x3 : FVec Ideal S128 .f32) (x4 : FVec Ideal S128x128 .f32) (x5 x6 x7 : FVec Ideal S128 .f32)
    (h : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ValueIdx.ix0
  dsimp only [fn, fn_part1, andi] at h0
  simp only [IntOp.andi_eq_one] at h0
  obtain ⟨⟨⟨⟨⟨⟨e0, e2⟩, e3⟩, e4⟩, e5⟩, _⟩, _⟩ := h0
  exact ⟨all_real x0 _ _ _ e0, all_real x2 _ _ _ e2, all_real x3 _ _ _ e3, all_real x4 _ _ _ e4,
    all_real x5 _ _ _ e5⟩

end Cert.Finite

end
-- ==== Proof.Bridge.lean ====
/-
  The two programs prepare the same arrays from the same arguments. The neighbour sums are ONE term of feature and
  edge_index on both sides (the same gather and accumulating scatter of the same ids); a transposed weight in the
  narrower float format is, over the extended reals, the transposed weight (a change of format is the identity);
  a vector viewed as a row by a reshape is the vector viewed as a row by a broadcast: both read v[j] at (0, j).
  And these arrays hold real numbers when the arguments do: a gathered entry is an entry of feature, an accumulated
  entry a finite sum of them over zero, a transposed or re-viewed entry an entry of its operand.
-/
import proofs.«166746_j87703232184759_1_alg».proof.Proof.KernelValue
import proofs.«166746_j87703232184759_1_alg».proof.Proof.Gen.ReferenceIdeal.Read
import proofs.«166746_j87703232184759_1_alg».proof.Proof.Spec
import proofs.«166746_j87703232184759_1_alg».proof.Proof.Algebra
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx Cert.Spec
open Cert.KernelIdeal.KValue (agg srcIds wT rowOf)

/-- The neighbour sums: the kernel program's term is the reference's stage. -/
theorem agg_eq (x0 : FVec Ideal Cert.KernelIdeal.S100000x128 .f32) (x1 : IVec Cert.KernelIdeal.S2x400000 32) :
    agg (F := Ideal) x0 x1 = Cert.ReferenceIdeal.Read.val_main_v13 (F := Ideal) x0 x1 := by
  unfold agg srcIds Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_c Cert.ReferenceIdeal.Read.val_main_c_0
  rfl

/-- A weight, transposed and in the narrower format, is the reference's transposed weight. -/
theorem wT_eq (w : FVec Ideal Cert.KernelIdeal.S128x128 .f32) :
    wT (F := Ideal) w = Cert.ReferenceIdeal.Read.val_main_v15 (F := Ideal) w := rfl

theorem wT_eq' (w : FVec Ideal Cert.KernelIdeal.S128x128 .f32) :
    wT (F := Ideal) w = Cert.ReferenceIdeal.Read.val_main_v22 (F := Ideal) w := rfl

/-- The column-j entry of a vector viewed as a row. -/
abbrev colOf (y : Cert.KernelIdeal.S1x128.Idx) : Cert.KernelIdeal.S128.Idx := fun a => match a with
  | ⟨0, _⟩ => ⟨(y 1).val, (y 1).isLt⟩

theorem rowOf_apply (v : FVec Ideal Cert.KernelIdeal.S128 .f32) (y : Cert.KernelIdeal.S1x128.Idx) :
    rowOf (F := Ideal) v y = v (colOf y) := by
  unfold rowOf
  refine shapeCast_apply v Cert.KernelIdeal.Facts₀.shapeCasts_S128_S1x128 y (colOf y) ?_
  rw [Shape.rowMajor_val_one, Shape.rowMajor_val_two]
  have h0 : (y 0).val < 1 := (y 0).isLt
  show (y 1).val = (y 0).val * 128 + (y 1).val
  omega

/-- A vector viewed as a row by a reshape is the vector viewed as a row by a broadcast along the new axis. -/
theorem rowOf_eq17 (v : FVec Ideal Cert.KernelIdeal.S128 .f32) :
    rowOf (F := Ideal) v = Cert.ReferenceIdeal.Read.val_main_v17 (F := Ideal) v := by
  funext y
  rw [rowOf_apply, Cert.ReferenceIdeal.Read.val_main_v17_apply]
  rfl

theorem rowOf_eq24 (v : FVec Ideal Cert.KernelIdeal.S128 .f32) :
    rowOf (F := Ideal) v = Cert.ReferenceIdeal.Read.val_main_v24 (F := Ideal) v := by
  funext y
  rw [rowOf_apply, Cert.ReferenceIdeal.Read.val_main_v24_apply]
  rfl

theorem rowOf_eq48 (v : FVec Ideal Cert.KernelIdeal.S128 .f32) :
    rowOf (F := Ideal) v = Cert.ReferenceIdeal.Read.val_main_v48 (F := Ideal) v := by
  funext y
  rw [rowOf_apply, Cert.ReferenceIdeal.Read.val_main_v48_apply]
  rfl

theorem rowOf_eq51 (v : FVec Ideal Cert.KernelIdeal.S128 .f32) :
    rowOf (F := Ideal) v = Cert.ReferenceIdeal.Read.val_main_v51 (F := Ideal) v := by
  funext y
  rw [rowOf_apply, Cert.ReferenceIdeal.Read.val_main_v51_apply]
  rfl

/-! ## Real numbers in, real numbers out -/

theorem isReal_rowOf (v : FVec Ideal Cert.KernelIdeal.S128 .f32) (hv : ∀ i, IsReal (v i)) :
    ∀ y, IsReal (rowOf (F := Ideal) v y) := fun y => by rw [rowOf_apply]; exact hv _

theorem isReal_wT (w : FVec Ideal Cert.KernelIdeal.S128x128 .f32) (hw : ∀ i, IsReal (w i)) :
    ∀ y, IsReal (wT (F := Ideal) w y) := fun y => hw _

/-- The neighbour sums of a real-valued feature array are real-valued, whatever the ids. -/
theorem isReal_agg (x0 : FVec Ideal Cert.KernelIdeal.S100000x128 .f32) (x1 : IVec Cert.KernelIdeal.S2x400000 32)
    (h0 : ∀ i, IsReal (x0 i)) : ∀ i, IsReal (agg (F := Ideal) x0 x1 i) := by
  unfold agg
  refine isReal_scatterAdd _ _ _ _ (fun i => ⟨0, ?_⟩) (fun j => h0 _)
  show Ideal.ofBits .f32 0x00000000#32 = ((0 : ℝ) : EReal)
  rw [Ideal.ofBits_zero_f32]; rfl

end Cert.Bridge

end
-- ==== Proof.lean ====
/-
  The certificate: a graph-isomorphism layer with batch normalisation, as two pallas_calls, against its jnp reference.

  Both programs form the hidden array H = L (L (feature + agg)), L(x)[r, j] = max (∑ₖ x[r, k] · W[j, k] + b[j]) 0, from
  the same neighbour sums agg, and return (H − μ) · rsqrt (var + ε) · γ + β with μ the column means of H. The kernel's
  first region writes H block by block (25 blocks of 4000 rows) while accumulating ∑ H and ∑ H² per column across the
  grid; between the regions @main forms μ = ∑H / n and var = ∑H² / n − μ²; the second region normalises block by
  block. The reference forms var = ∑ (H − μ)² / n. Over the extended reals the two variances agree once every entry
  of H is a real number, which the precondition gives: feature, the weights and the biases are finite, the neighbour
  sums are finite sums of entries of feature, and a layer of reals is real. A change of float format is the identity
  at this instance, a matrix product into a zero accumulator is the plain sum over the contracted axis, and the
  regrouping of a column sum into 25 partial sums needs only that addition is commutative and associative.

  The three frames are the generated ones (the reference's is its run with the result dropped); the idealization
  rewrote nothing; the value claim joins the kernel's run with its result named, the reference's run read index by
  index, and the law above.
-/
import proofs.«166746_j87703232184759_1_alg».proof.Defs
import proofs.«166746_j87703232184759_1_alg».proof.Proof.Gen.Kernel
import proofs.«166746_j87703232184759_1_alg».proof.Proof.Gen.Kernel.Skeleton
import proofs.«166746_j87703232184759_1_alg».proof.Proof.Gen.Kernel.Launch
import proofs.«166746_j87703232184759_1_alg».proof.Proof.Gen.Kernel.Points
import proofs.«166746_j87703232184759_1_alg».proof.Proof.Gen.Kernel.Frame
import proofs.«166746_j87703232184759_1_alg».proof.Proof.Gen.KernelIdeal
import proofs.«166746_j87703232184759_1_alg».proof.Proof.Gen.KernelIdeal.Skeleton
import proofs.«166746_j87703232184759_1_alg».proof.Proof.Gen.KernelIdeal.Launch
import proofs.«166746_j87703232184759_1_alg».proof.Proof.Gen.KernelIdeal.Points
import proofs.«166746_j87703232184759_1_alg».proof.Proof.Gen.KernelIdeal.Frame
import proofs.«166746_j87703232184759_1_alg».proof.Proof.Gen.ReferenceIdeal
import proofs.«166746_j87703232184759_1_alg».proof.Proof.Gen.ReferenceIdeal.Run
import proofs.«166746_j87703232184759_1_alg».proof.Proof.Gen.ReferenceIdeal.Read
import proofs.«166746_j87703232184759_1_alg».proof.Proof.Gen.Pre_finite_inputs
import proofs.«166746_j87703232184759_1_alg».proof.Proof.KernelRun
import proofs.«166746_j87703232184759_1_alg».proof.Proof.KernelSpec
import proofs.«166746_j87703232184759_1_alg».proof.Proof.RefValue
import proofs.«166746_j87703232184759_1_alg».proof.Proof.Algebra
import proofs.«166746_j87703232184759_1_alg».proof.Proof.Finite
import proofs.«166746_j87703232184759_1_alg».proof.Proof.Bridge
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's is the
    normalisation by the accumulated ∑H and ∑H², the reference's by the centred second moment, and with H real-valued
    these are one function. -/
theorem algebraic : Cert.algebraic_KernelIdeal_ReferenceIdeal := by
  intro m ρ m' ρ' hpre hagree
  refine ⟨fun c => Cert.KernelIdeal.KSpec.kout m c, ?_, ?_⟩
  · exact (θ_run Cert.KernelIdeal.defs _ _).mono
      (fun r h c => ⟨(h c).1.trans (Cert.KernelIdeal.KSpec.result_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    obtain ⟨r0, r2, r3, r4, r5⟩ := Cert.Finite.real_of_pre _ _ _ _ _ _ _ _ (hpre c)
    rw [Cert.ReferenceIdeal.Read.val_main_v53_eq, Cert.ReferenceIdeal.RefValue.ref_value, e0, e1, e2, e3, e4, e5, e6, e7,
      ← Cert.Bridge.agg_eq, ← Cert.Bridge.wT_eq, ← Cert.Bridge.wT_eq', ← Cert.Bridge.rowOf_eq17, ← Cert.Bridge.rowOf_eq24,
      ← Cert.Bridge.rowOf_eq48, ← Cert.Bridge.rowOf_eq51]
    exact (Cert.Spec.kernelOut_eq_refOut _ _ Cert.Spec.c1e5 _ _ _ _ _ _ _ _
      (Cert.Spec.isReal_hid _ _ _ _ _ _ r0 (Cert.Bridge.isReal_agg _ _ r0) (Cert.Bridge.isReal_wT _ r2)
        (Cert.Bridge.isReal_rowOf _ r3) (Cert.Bridge.isReal_wT _ r4) (Cert.Bridge.isReal_rowOf _ r5))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
